-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S128x128 .f32) (main_arg5 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  main_v28

def fn {F : FTy → Type} [FloatOps F] (main_arg0 : FVec F S10000x128 .f32) (main_arg1 : FVec F S10000x10000 .f32) (main_arg2 : FVec F S128x128 .f32) (main_arg3 : FVec F S128 .f32) (main_arg4 : FVec F S128x128 .f32) (main_arg5 : FVec F S128 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_v13 main_v16
-- ==== Kernel.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S1x128 : Shape := ⟨2, ![1, 128]⟩
abbrev S200x10000 : Shape := ⟨2, ![200, 10000]⟩
abbrev S200x128 : Shape := ⟨2, ![200, 128]⟩

abbrev nBuf : Space → Nat
  | .hbm => 9
  | .vmem => 11
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S1x128, .f32⟩
  | .hbm, ⟨7, _⟩ => ⟨S1x128, .f32⟩
  | .hbm, ⟨8, _⟩ => ⟨S10000x128, .f32⟩
  | .local _ .vmem, ⟨0, _⟩ => ⟨S200x10000, .f32⟩
  | .local _ .vmem, ⟨1, _⟩ => ⟨S200x10000, .f32⟩
  | .local _ .vmem, ⟨2, _⟩ => ⟨S10000x128, .f32⟩
  | .local _ .vmem, ⟨3, _⟩ => ⟨S128x128, .f32⟩
  | .local _ .vmem, ⟨4, _⟩ => ⟨S1x128, .f32⟩
  | .local _ .vmem, ⟨5, _⟩ => ⟨S128x128, .f32⟩
  | .local _ .vmem, ⟨6, _⟩ => ⟨S1x128, .f32⟩
  | .local _ .vmem, ⟨7, _⟩ => ⟨S200x128, .f32⟩
  | .local _ .vmem, ⟨8, _⟩ => ⟨S200x128, .f32⟩
  | .local _ .vmem, ⟨9, _⟩ => ⟨S10000x128, .bf16⟩
  | .local _ .vmem, ⟨10, _⟩ => ⟨S10000x128, .bf16⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_v0 : Ref sig .tc := ⟨.hbm, 6, rfl⟩
abbrev main_call0_v1 : Ref sig .tc := ⟨.hbm, 7, rfl⟩
abbrev main_v0 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_scratch0 : Ref sig .tc := ⟨.vmem, 9, rfl⟩
abbrev cc0_scratch1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![100], ![false]⟩

def k0_cond2 (i : grid0.Coords) : BitVec 1 :=
  let arg0 : BitVec 32 := BitVec.ofNat 32 (i 0).val
  let c50_i32 : BitVec 32 := 50#32
  let v5 : BitVec 1 := Scalar.cmpi .slt arg0 c50_i32
  let v6 : BitVec 32 := Scalar.extui v5
  let c0_i32_2 : BitVec 32 := 0#32
  let v7 : BitVec 1 := Scalar.cmpi .ne v6 c0_i32_2
  v7

def k0_off1 (i : grid0.Coords) : Fin 2 → Nat :=
  let arg0 : BitVec 32 := BitVec.ofNat 32 (i 0).val
  let c200_i32 : BitVec 32 := 200#32
  let v24 : BitVec 32 := Scalar.muli arg0 c200_i32
  let v25 : Index := Scalar.indexCast v24
  let c0_13 : Index := 0#32
  ![v25.toNat, 0]
def k0_cond3 (i : grid0.Coords) : BitVec 1 :=
  let arg0 : BitVec 32 := BitVec.ofNat 32 (i 0).val
  let c50_i32_3 : BitVec 32 := 50#32
  let v8 : BitVec 1 := Scalar.cmpi .sge arg0 c50_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let c50_i32 : BitVec 32 := 50#32
  let c0_i32 : BitVec 32 := 0#32
  let v0 : BitVec 1 := Scalar.cmpi .eq c50_i32 c0_i32
  let c1_i32 : BitVec 32 := 1#32
  let v1 : BitVec 32 := Scalar.select v0 c1_i32 c50_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c50_i32 : BitVec 32 := 50#32
  let v0 : BitVec 32 := Scalar.subi arg0 c50_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage0_0 : Fin 2 → Memref sig .tc .vmem S200x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S10000x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S200x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  shapeCasts_S128_S1x128 : S128.ShapeCasts S1x128
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S10000x128_S10000x128 : S10000x128.ShapeCasts S10000x128
  packedbf16_S10000x128_S10000x128_0_0 : (Rect.unit (s := S10000x128) ![0, 0] S10000x128.size inb_S10000x128_S10000x128_0_0).PackedRows (EltTy.packing .bf16)
  inb_S200x10000_S200x10000_0_0 : ∀ a, (![0, 0] : Fin 2 → Nat) a + S200x10000.size a ≤ S200x10000.size a
  h_S200x10000 : 0 < S200x10000.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S200x128 : S1x128.Broadcasts S200x128
  h_S200x128 : 0 < S200x128.numel
  shapeCasts_S200x128_S200x128 : S200x128.ShapeCasts S200x128
  inb_S200x128_S200x128_0_0 : ∀ a, (![0, 0] : Fin 2 → Nat) a + S200x128.size a ≤ S200x128.size a
  dot_S10000x128_S128x128_S10000x128_1_0_0_1_n_n_wf : DotDims.WF S10000x128 S128x128 S10000x128 [1] [0] [0] [1] [] []
  dot_S200x10000_S10000x128_S200x128_1_0_0_1_n_n_wf : DotDims.WF S200x10000 S10000x128 S200x128 [1] [0] [0] [1] [] []
  dot_S200x128_S128x128_S200x128_1_0_0_1_n_n_wf : DotDims.WF S200x128 S128x128 S200x128 [1] [0] [0] [1] [] []
  hrank0 : 0 < grid0.rank
  k0_off1_inb : ∀ i : grid0.Coords, ∀ (k0_h2 : k0_cond2 i = 1#1), ∀ a, (k0_off1 i) a + S200x128.size a ≤ S10000x128.size a
  k0_off1_packedbf16 : ∀ i : grid0.Coords, ∀ (k0_h2 : k0_cond2 i = 1#1), (Rect.unit (s := S10000x128) (k0_off1 i) S200x128.size (k0_off1_inb i k0_h2)).PackedRows (EltTy.packing .bf16)
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S200x10000.size a ≤ S10000x10000.size a
  hwx0_0 : ∀ i : grid0.Coords, EltTy.bits .f32 = 32 ∨ (Rect.block (s := S10000x10000) S200x10000.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S10000x128.size a ≤ S10000x128.size a
  hwx0_1 : ∀ i : grid0.Coords, EltTy.bits .f32 = 32 ∨ (Rect.block (s := S10000x128) S10000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S200x128.size a ≤ S10000x128.size a
  hwx0_6 : ∀ i : grid0.Coords, EltTy.bits .f32 = 32 ∨ (Rect.block (s := S10000x128) S200x128.size (cc0_transform_6 i) (hinb0_6 i)).WholeWords (EltTy.packing .f32)

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S200x10000_S10000x128_S200x128_1_0_0_1_n_n : DotDims S200x10000 S10000x128 S200x128 where
  lhsContracting := [1]
  rhsContracting := [0]
  lhsNonContracting := [0]
  rhsNonContracting := [1]
  lhsBatch := []
  rhsBatch := []
  wf := dot_S200x10000_S10000x128_S200x128_1_0_0_1_n_n_wf
def dot_S200x128_S128x128_S200x128_1_0_0_1_n_n : DotDims S200x128 S128x128 S200x128 where
  lhsContracting := [1]
  rhsContracting := [0]
  lhsNonContracting := [0]
  rhsNonContracting := [1]
  lhsBatch := []
  rhsBatch := []
  wf := dot_S200x128_S128x128_S200x128_1_0_0_1_n_n_wf

abbrev win0_0 : Pipeline.Window sig grid0 :=
  Pipeline.Window.ofSpec (Memref.whole main_arg1) S200x10000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S10000x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_call0_v0) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_call0_v1) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v0) S200x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun _ => false | 5 => fun _ => false | 6 => fun i => !(k0_cond3 i == 1#1) | ⟨_ + 7, h⟩ => absurd h (Nat.not_lt.2 (Nat.le_add_left _ _))

class Facts : Prop extends Facts₀ where

variable [Facts]
-- ==== ReferenceIdeal.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S1x128 : Shape := ⟨2, ![1, 128]⟩
abbrev S_ : Shape := ⟨0, ![]⟩

abbrev nBuf : Space → Nat
  | .hbm => 19
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S10000x128, .f32⟩
  | .hbm, ⟨7, _⟩ => ⟨S10000x128, .f32⟩
  | .hbm, ⟨8, _⟩ => ⟨S1x128, .f32⟩
  | .hbm, ⟨9, _⟩ => ⟨S10000x128, .f32⟩
  | .hbm, ⟨10, _⟩ => ⟨S10000x128, .f32⟩
  | .hbm, ⟨11, _⟩ => ⟨S_, .f32⟩
  | .hbm, ⟨12, _⟩ => ⟨S10000x128, .f32⟩
  | .hbm, ⟨13, _⟩ => ⟨S10000x128, .f32⟩
  | .hbm, ⟨14, _⟩ => ⟨S10000x128, .f32⟩
  | .hbm, ⟨15, _⟩ => ⟨S10000x128, .f32⟩
  | .hbm, ⟨16, _⟩ => ⟨S1x128, .f32⟩
  | .hbm, ⟨17, _⟩ => ⟨S10000x128, .f32⟩
  | .hbm, ⟨18, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_call0_cst : Ref sig .tc := ⟨.hbm, 11, rfl⟩
abbrev main_call0_v0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  bcast_S_S10000x128 : S_.BroadcastsInDim S10000x128 (![] : Fin 0 → Fin S10000x128.rank)
  dot_S10000x128_S128x128_S10000x128_1_0_0_1_n_n_wf : DotDims.WF S10000x128 S128x128 S10000x128 [1] [0] [0] [1] [] []
  dot_S10000x10000_S10000x128_S10000x128_1_0_0_1_n_n_wf : DotDims.WF S10000x10000 S10000x128 S10000x128 [1] [0] [0] [1] [] []

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf

class Facts : Prop extends Facts₀ where

variable [Facts]
-- ==== Proof.Kernel.Conds.lean ====
/-
  The three branch conditions of the kernel body, decided over the grid: the first holds at point 0 only
  (the projection x·W0 is computed once), the second at points 0..49 (the first sweep over the adjacency
  row blocks), the third at points 50..99 (the second sweep). The output window is idle during the first
  sweep and is written back at every point of the second. Also the staging memrefs the pipeline hands the
  body at a point, and the two scratch buffers as whole memrefs.
-/
import proofs.«155554_g23725399343418_cont_8to1_318_3_alg».proof.Proof.Gen.Kernel.Frame
import proofs.«155554_g23725399343418_cont_8to1_318_3_alg».proof.Proof.Gen.Kernel.Skeleton

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The first conditional's condition: the point is the grid's first. -/
abbrev isFirst (i : grid0.Coords) : Prop := (Scalar.cmpi .ne (Scalar.extui (Scalar.cmpi .eq (BitVec.ofNat 32 (i 0).val) 0#32)) 0#32) = 1#1
theorem isFirst_iff : ∀ t : Fin cfg0.N, isFirst (grid0.coords t) ↔ t.val = 0 :=
  (by decide +kernel : ∀ t : Fin grid0.N, isFirst (grid0.coords t) ↔ t.val = 0)

/-- The second conditional's condition: the point lies in the first sweep. -/
abbrev inSweep0 (i : grid0.Coords) : Prop := k0_cond2 i = 1#1
theorem inSweep0_iff : ∀ t : Fin cfg0.N, inSweep0 (grid0.coords t) ↔ t.val < 50 :=
  (by decide +kernel : ∀ t : Fin grid0.N, inSweep0 (grid0.coords t) ↔ t.val < 50)

/-- The third conditional's condition: the point lies in the second sweep. -/
abbrev inSweep1 (i : grid0.Coords) : Prop := k0_cond3 i = 1#1
theorem inSweep1_iff : ∀ t : Fin cfg0.N, inSweep1 (grid0.coords t) ↔ 50 ≤ t.val :=
  (by decide +kernel : ∀ t : Fin grid0.N, inSweep1 (grid0.coords t) ↔ 50 ≤ t.val)

/-- The slice of the second scratch the first sweep fills at point t: rows [200 t, 200 t + 200). -/
theorem sliceOff_eq : ∀ t : Fin cfg0.N, t.val < 50 → k0_off1 (grid0.coords t) = ![200 * t.val, 0] :=
  (by decide +kernel : ∀ t : Fin grid0.N, t.val < 50 → k0_off1 (grid0.coords t) = ![200 * t.val, 0])

/-- The input windows are never idle. -/
theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
theorem live4 : ∀ t : Fin cfg0.N, cfg0.idle 4 (grid0.coords t) = false := by decide +kernel
theorem live5 : ∀ t : Fin cfg0.N, cfg0.idle 5 (grid0.coords t) = false := by decide +kernel
/-- The output window is idle exactly during the first sweep, -/
theorem idle6_iff : ∀ t : Fin cfg0.N, cfg0.idle 6 (grid0.coords t) = true ↔ t.val < 50 :=
  (by decide +kernel : ∀ t : Fin grid0.N, cfg0.idle 6 (grid0.coords t) = true ↔ t.val < 50)
/-- and written back exactly at the points of the second. -/
theorem flush6_iff : ∀ t : Fin cfg0.N, (cfg0.win 6).flush t = true ↔ 50 ≤ t.val :=
  (by decide +kernel : ∀ t : Fin grid0.N, win0_6.flush t = true ↔ 50 ≤ t.val)

/-- Each window's current staging memref at point t, as the pipeline passes it, and its wholeness. -/
abbrev sm0 (t : Fin cfg0.N) : Memref sig .tc .vmem S200x10000 .f32 := win0_0.stage (cfg0.slots t 0)
abbrev hsm0 (t : Fin cfg0.N) : (sm0 t).IsWhole := hstage0_0 ((cfg0.slots t 0).cast nbuf0_0)
abbrev sm1 (t : Fin cfg0.N) : Memref sig .tc .vmem S10000x128 .f32 := win0_1.stage (cfg0.slots t 1)
abbrev hsm1 (t : Fin cfg0.N) : (sm1 t).IsWhole := hstage0_1 ((cfg0.slots t 1).cast nbuf0_1)
abbrev sm2 (t : Fin cfg0.N) : Memref sig .tc .vmem S128x128 .f32 := win0_2.stage (cfg0.slots t 2)
abbrev hsm2 (t : Fin cfg0.N) : (sm2 t).IsWhole := hstage0_2 ((cfg0.slots t 2).cast nbuf0_2)
abbrev sm3 (t : Fin cfg0.N) : Memref sig .tc .vmem S1x128 .f32 := win0_3.stage (cfg0.slots t 3)
abbrev hsm3 (t : Fin cfg0.N) : (sm3 t).IsWhole := hstage0_3 ((cfg0.slots t 3).cast nbuf0_3)
abbrev sm4 (t : Fin cfg0.N) : Memref sig .tc .vmem S128x128 .f32 := win0_4.stage (cfg0.slots t 4)
abbrev hsm4 (t : Fin cfg0.N) : (sm4 t).IsWhole := hstage0_4 ((cfg0.slots t 4).cast nbuf0_4)
abbrev sm5 (t : Fin cfg0.N) : Memref sig .tc .vmem S1x128 .f32 := win0_5.stage (cfg0.slots t 5)
abbrev hsm5 (t : Fin cfg0.N) : (sm5 t).IsWhole := hstage0_5 ((cfg0.slots t 5).cast nbuf0_5)
abbrev sm6 (t : Fin cfg0.N) : Memref sig .tc .vmem S200x128 .f32 := win0_6.stage (cfg0.slots t 6)
abbrev hsm6 (t : Fin cfg0.N) : (sm6 t).IsWhole := hstage0_6 ((cfg0.slots t 6).cast nbuf0_6)
/-- The two scratch buffers: the first holds the projection x·W0, the second the projected hidden layer. -/
abbrev scrP : Memref sig .tc .vmem S10000x128 .bf16 := Memref.whole cc0_scratch0
abbrev scrH : Memref sig .tc .vmem S10000x128 .bf16 := Memref.whole cc0_scratch1

/-- The region's class invariant with the two scratch buffers as memrefs owned at some contents. -/
theorem PhiA_eq (c : Dev nD) :
    (Pipeline.ΦA spec0 c : sProp 𝕄)
      = iprop(iprop((∃ d, owns (c : Thread nD τ) scrP fullShare d) ∗ (∃ d, owns (c : Thread nD τ) scrH fullShare d)) ∗ (∃ r, prngReg c r)) := by
  unfold Pipeline.ΦA; rw [scopedRest0_eq]; simp only [scrP, scrH, owns_whole]; try rfl

end Cert.Kernel.Body

end
-- ==== Proof.LibRows.lean ====
/-
  A rank-2 buffer held whole at named contents, after ONE store of whole rows [o, o + W): it reads the
  store's payload on those rows, at the row minus o, and the old contents on every other row.
-/
import Idealize.ShloMosaic.Lib.WritesUnit
import Idealize.ShloMosaic.Lib.Pipeline.Frame

noncomputable section

namespace Idealize.ShloMosaic

/-- Contents `old` of a rank-2 shape with the rows [o, o + W) replaced by the block `P` (indexed from row 0). -/
def putRows {d : Fin 2 → ℕ} {α : Type} (o W : ℕ) (size : Fin 2 → ℕ) (hW : size (0 : Fin 2) = W) (hD : size (1 : Fin 2) = d (1 : Fin 2))
    (old : (⟨2, d⟩ : Shape).Idx → α) (P : ((a : Fin 2) → Fin (size a)) → α) : (⟨2, d⟩ : Shape).Idx → α :=
  fun y => if hh : o ≤ (y (0 : Fin 2)).val ∧ (y (0 : Fin 2)).val < o + W then
      P (Rect.unitLocal (s := ⟨2, d⟩) (off := ![o, 0]) (size := size) y (Rect.unit_rows_mem y hW hD hh))
    else old y

/-- On a row of the slab the new contents are the block's. -/
theorem putRows_of_mem {d : Fin 2 → ℕ} {α : Type} (o W : ℕ) (size : Fin 2 → ℕ) (hW : size (0 : Fin 2) = W) (hD : size (1 : Fin 2) = d (1 : Fin 2))
    (old : (⟨2, d⟩ : Shape).Idx → α) (P : ((a : Fin 2) → Fin (size a)) → α) (y : (⟨2, d⟩ : Shape).Idx)
    (hh : o ≤ (y (0 : Fin 2)).val ∧ (y (0 : Fin 2)).val < o + W) :
    putRows o W size hW hD old P y = P (Rect.unitLocal (s := ⟨2, d⟩) (off := ![o, 0]) (size := size) y (Rect.unit_rows_mem y hW hD hh)) := by
  unfold putRows; rw [dif_pos hh]

/-- On any other row they are the old ones. -/
theorem putRows_of_not_mem {d : Fin 2 → ℕ} {α : Type} (o W : ℕ) (size : Fin 2 → ℕ) (hW : size (0 : Fin 2) = W) (hD : size (1 : Fin 2) = d (1 : Fin 2))
    (old : (⟨2, d⟩ : Shape).Idx → α) (P : ((a : Fin 2) → Fin (size a)) → α) (y : (⟨2, d⟩ : Shape).Idx)
    (hh : ¬(o ≤ (y (0 : Fin 2)).val ∧ (y (0 : Fin 2)).val < o + W)) :
    putRows o W size hW hD old P y = old y := by
  unfold putRows; rw [dif_neg hh]

/-- A whole memref at contents `old`, after one store of the rows [o, o + W), reads `putRows`. -/
theorem Memref.IsWhole.read_writes_rows {sig : RefSig} {κ : Kind} {sp : Space} {d : Fin 2 → ℕ} {e : EltTy} {Val : EltTy → Type}
    {mr : Memref sig κ sp (⟨2, d⟩ : Shape) e} (h : mr.IsWhole) {off size : Fin 2 → ℕ} {o W : ℕ}
    (inb : ∀ a : Fin 2, off a + size a ≤ d a)
    (P : (Rect.unit (s := ⟨2, d⟩) off size inb).shape.Idx → Val e) (old : (⟨2, d⟩ : Shape).Idx → Val e)
    (hoff : off = ![o, 0]) (hW : size (0 : Fin 2) = W) (hD : size (1 : Fin 2) = d (1 : Fin 2)) :
    mr.view.read Val (mr.view.writes Val (h.unread old) [(⟨Rect.unit (s := ⟨2, d⟩) off size inb, P⟩ : View.Piece Val (⟨2, d⟩ : Shape) e)])
      = putRows o W size hW hD old P := by
  funext y
  rw [View.read_writes_cons_rows mr.view (h.unread old) inb P [] y hoff hW hD]
  unfold putRows
  by_cases hh : o ≤ (y (0 : Fin 2)).val ∧ (y (0 : Fin 2)).val < o + W
  · rw [dif_pos hh, dif_pos hh]
  · rw [dif_neg hh, dif_neg hh, View.writes_nil, h.read_unread]

end Idealize.ShloMosaic

end
-- ==== Proof.Kernel.Data.lean ====
/-
  The pipeline's proof data. The first scratch holds, from the first point on, the projection P = x·W0 computed from
  the x and W0 blocks; the second scratch is filled one 200-row slab per point of the first sweep, so after point n
  its rows below 200·(n+1) hold the projected hidden layer Hp and the rows above hold whatever they held, which the
  invariant does not name; from point 50 on every row is filled. The output block written at a point of the second
  sweep is the adjacency block times Hp plus the bias block.
-/
import proofs.«155554_g23725399343418_cont_8to1_318_3_alg».proof.Proof.Kernel.Conds
import proofs.«155554_g23725399343418_cont_8to1_318_3_alg».proof.Proof.LibRows

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The grid's first point. -/
abbrev t0 : Fin cfg0.N := ⟨0, by decide⟩

/-- The projection x·W0, as the body computes it from the x and W0 blocks (each the whole array). -/
def projP (c : Dev nD) : Vec F S10000x128 .bf16 := k0_pay1 (iblk m c 1 t0) (iblk m c 2 t0)

theorem row_lt (y : S10000x128.Idx) : (y (0 : Fin 2)).val < 10000 := (y (0 : Fin 2)).isLt

/-- The grid point of the first sweep that fills row y's slab. -/
def slabPt (y : S10000x128.Idx) : Fin cfg0.N := ⟨(y (0 : Fin 2)).val / 200, by have := row_lt y; have hN : cfg0.N = 100 := N_0; omega⟩

/-- An index's position within its slab. -/
def slabIx (y : S10000x128.Idx) : (a : Fin 2) → Fin (S200x128.size a) :=
  fun a => match a with
    | ⟨0, _⟩ => ⟨(y (0 : Fin 2)).val % 200, Nat.mod_lt _ (by decide)⟩
    | ⟨1, _⟩ => ⟨(y (1 : Fin 2)).val, (y (1 : Fin 2)).isLt⟩

/-- The projected hidden layer, every row: row y's slab computed from the adjacency block of the slab's point, the
    projection, and the b0 and W1 blocks. -/
def hidP (c : Dev nD) : Vec F S10000x128 .bf16 := fun y =>
  k0_pay3 (iblk m c 0 (slabPt y)) (projP m c) (iblk m c 3 t0) (iblk m c 4 t0) (slabIx y)

/-- The output block the second sweep writes at point t. -/
def outBlk (c : Dev nD) (t : Fin cfg0.N) : Vec F S200x128 .f32 := k0_pay4 (iblk m c 0 t) (hidP m c) (iblk m c 5 t)

/-- The region's invariant before position n: before the first point the class's (both scratch buffers at anything);
    afterwards the first scratch at the projection, the second at SOME contents that agree with the projected hidden
    layer on the rows filled so far, and the generator register at some state. -/
def Phi (c : Dev nD) : ℕ → sProp 𝕄
  | 0 => Pipeline.ΦA spec0 c
  | n + 1 => iprop(iprop(owns (c : Thread nD τ) scrP fullShare (projP m c)
      ∗ (∃ d : Vec F S10000x128 .bf16, ⌜∀ y : S10000x128.Idx, (y (0 : Fin 2)).val < 200 * (n + 1) → d y = hidP m c y⌝ ∗ owns (c : Thread nD τ) scrH fullShare d))
      ∗ (∃ r, prngReg c r))

theorem Phi_zero (c : Dev nD) : Phi m c 0 = Pipeline.ΦA spec0 c := rfl

theorem Phi_succ (c : Dev nD) (n : ℕ) :
    Phi m c (n + 1) = iprop(iprop(owns (c : Thread nD τ) scrP fullShare (projP m c)
      ∗ (∃ d : Vec F S10000x128 .bf16, ⌜∀ y : S10000x128.Idx, (y (0 : Fin 2)).val < 200 * (n + 1) → d y = hidP m c y⌝ ∗ owns (c : Thread nD τ) scrH fullShare d))
      ∗ (∃ r, prngReg c r)) := rfl

theorem Phi_pos (c : Dev nD) (n : ℕ) (hn : n ≠ 0) :
    Phi m c n = iprop(iprop(owns (c : Thread nD τ) scrP fullShare (projP m c)
      ∗ (∃ d : Vec F S10000x128 .bf16, ⌜∀ y : S10000x128.Idx, (y (0 : Fin 2)).val < 200 * n → d y = hidP m c y⌝ ∗ owns (c : Thread nD τ) scrH fullShare d))
      ∗ (∃ r, prngReg c r)) := by
  cases n with
  | zero => exact absurd rfl hn
  | succ n => rfl

/-- The proof data of the one pipeline on core c: the arrays as the region finds them; after the body at point t each
    input's buffer at its block and the output's at the block the second sweep writes; the invariant above; nothing
    owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outBlk m c t
  Φ t := Phi m c t.val
  q _ := fullShare
  owed _ := 0

theorem A_eq (c : Dev nD) (w : Fin cfg0.W) : (dats m 0 c).A w = V m c (Pipeline.arrRef spec0 w) := by
  dsimp only [dats]

theorem Phi_castSucc (c : Dev nD) (t : Fin cfg0.N) : (dats m 0 c).Φ t.castSucc = Phi m c t.val := by
  dsimp only [dats]; simp only [Fin.coe_castSucc]

theorem Phi_succ' (c : Dev nD) (t : Fin cfg0.N) : (dats m 0 c).Φ t.succ = Phi m c (t.val + 1) := by
  dsimp only [dats]; simp only [Fin.val_succ]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = outBlk m c t := by dsimp only [dats]

/-- Each input's current staging buffer holds its block at every point, fetched there or not. -/
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d

/-- The whole-array windows' blocks do not depend on the point: their index maps are constant. -/
theorem iblk1_const (c : Dev nD) (t : Fin cfg0.N) : iblk m c 1 t = iblk m c 1 t0 := rfl
theorem iblk2_const (c : Dev nD) (t : Fin cfg0.N) : iblk m c 2 t = iblk m c 2 t0 := rfl
theorem iblk3_const (c : Dev nD) (t : Fin cfg0.N) : iblk m c 3 t = iblk m c 3 t0 := rfl
theorem iblk4_const (c : Dev nD) (t : Fin cfg0.N) : iblk m c 4 t = iblk m c 4 t0 := rfl
theorem iblk5_const (c : Dev nD) (t : Fin cfg0.N) : iblk m c 5 t = iblk m c 5 t0 := rfl

end Cert.Kernel.Body

end
-- ==== Proof.Kernel.RunA.lean ====
/-
  The body at the grid's first point: the projection x·W0 is stored whole into the first scratch, read back, and
  the first 200-row slab of the projected hidden layer is stored into the second scratch over whatever it held;
  the output's buffer is not touched.
-/
import proofs.«155554_g23725399343418_cont_8to1_318_3_alg».proof.Proof.Kernel.Conds
import proofs.«155554_g23725399343418_cont_8to1_318_3_alg».proof.Proof.LibRows
import Idealize.ShloMosaic.Lib.Pipeline.Value

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At a point where the first two conditionals are taken and the third is not: the inputs' buffers are kept, the
    output's buffer is kept, the first scratch ends at the projection of the x and W0 blocks, and the second scratch
    at its old contents with the rows [o, o + 200) replaced by the slab computed from the adjacency block. -/
theorem runA (c : Dev nD) (i : grid0.Coords) (arg1 : Memref sig .tc .vmem S200x10000 .f32) (harg1 : arg1.IsWhole) (arg2 : Memref sig .tc .vmem S10000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S200x128 .f32) (harg7 : arg7.IsWhole) (arg8 : Memref sig .tc .vmem S10000x128 .bf16) (harg8 : arg8.IsWhole) (arg9 : Memref sig .tc .vmem S10000x128 .bf16) (harg9 : arg9.IsWhole) (hc0 : isFirst i) (hc1 : inSweep0 i) (hc2 : ¬inSweep1 i)
    (o : ℕ) (ho : k0_off1 i = ![o, 0])
    (x0 : Vec F S200x10000 .f32) (x1 : Vec F S10000x128 .f32) (x2 : Vec F S128x128 .f32) (x3 : Vec F S1x128 .f32) (x4 : Vec F S128x128 .f32) (x5 : Vec F S1x128 .f32) (x6 : Vec F S200x128 .f32) (xh : Vec F S10000x128 .bf16) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ owns (c : Thread nD τ) arg9 fullShare xh
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (k0_pay1 x1 x2)
            ∗ owns (c : Thread nD τ) arg9 fullShare (putRows o 200 S200x128.size rfl rfl xh (k0_pay3 x0 (k0_pay1 x1 x2) x3 x4))) -∗ K ⟨⟩))
      ⊢ wp frame (wpE (defs₀ (F := F)) Variants.none c none) E (cc0__gcn_body i arg1 harg1 arg2 harg2 arg3 harg3 arg4 harg4 arg5 harg5 arg6 harg6 arg7 harg7 arg8 harg8 arg9 harg9) K := by
  have hz : (![0, 0] : Fin 2 → ℕ) = fun _ => 0 := funext fun a => by fin_cases a <;> rfl
  simp only [cc0__gcn_body_eq_skeleton]; unfold cc0__gcn_body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds0, %fs0, -, HS0⟩, ⟨%fs1, %hfs1, HS1⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg9.eq_unread hfs1
  sl_exec (disch := first | exact hc0 | exact hc1 | exact hc2)
  sl_step
  sl_unfold_run_names
  simp only [View.readAt_eq_ld, Memref.IsWhole.read_unread, View.ld_unit_zero (S := S200x10000) hz, View.ld_unit_zero (S := S10000x128) hz, View.ld_unit_zero (S := S128x128) hz, View.ld_unit_zero (S := S1x128) hz, View.ld_unit_zero (S := S200x128) hz, View.readCov_unit_zero (S := S10000x128) _ hz]
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact hf6
    iexact H6
  isplitl [HS0]
  · iexists _; isplitr; swap; · iexact HS0
    ipureintro; funext y; exact View.read_writes_cons_unit_of_mem _ _ _ _ [] y y rfl (fun a => by fin_cases a <;> simp)
  iexists _; isplitr; swap; · iexact HS1
  ipureintro
  exact harg9.read_writes_rows (k0_off1_inb i hc1) _ xh ho rfl rfl

end Cert.Kernel.Body

end
-- ==== Proof.Kernel.RunB.lean ====
/-
  The body at a later point of the first sweep: the first scratch (the projection) is only read, and the point's
  200-row slab of the projected hidden layer is stored into the second scratch over what it held; the output's
  buffer is not touched.
-/
import proofs.«155554_g23725399343418_cont_8to1_318_3_alg».proof.Proof.Kernel.Conds
import proofs.«155554_g23725399343418_cont_8to1_318_3_alg».proof.Proof.LibRows
import Idealize.ShloMosaic.Lib.Pipeline.Value

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At a point where only the second conditional is taken: everything is kept but the second scratch, which ends at
    its old contents with the rows [o, o + 200) replaced by the slab computed from the adjacency block and the
    projection the first scratch holds. -/
theorem runB (c : Dev nD) (i : grid0.Coords) (arg1 : Memref sig .tc .vmem S200x10000 .f32) (harg1 : arg1.IsWhole) (arg2 : Memref sig .tc .vmem S10000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S200x128 .f32) (harg7 : arg7.IsWhole) (arg8 : Memref sig .tc .vmem S10000x128 .bf16) (harg8 : arg8.IsWhole) (arg9 : Memref sig .tc .vmem S10000x128 .bf16) (harg9 : arg9.IsWhole) (hc0 : ¬isFirst i) (hc1 : inSweep0 i) (hc2 : ¬inSweep1 i)
    (o : ℕ) (ho : k0_off1 i = ![o, 0])
    (x0 : Vec F S200x10000 .f32) (x1 : Vec F S10000x128 .f32) (x2 : Vec F S128x128 .f32) (x3 : Vec F S1x128 .f32) (x4 : Vec F S128x128 .f32) (x5 : Vec F S1x128 .f32) (x6 : Vec F S200x128 .f32) (xp : Vec F S10000x128 .bf16) (xh : Vec F S10000x128 .bf16) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare xp ∗ owns (c : Thread nD τ) arg9 fullShare xh
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare xp
            ∗ owns (c : Thread nD τ) arg9 fullShare (putRows o 200 S200x128.size rfl rfl xh (k0_pay3 x0 xp x3 x4))) -∗ K ⟨⟩))
      ⊢ wp frame (wpE (defs₀ (F := F)) Variants.none c none) E (cc0__gcn_body i arg1 harg1 arg2 harg2 arg3 harg3 arg4 harg4 arg5 harg5 arg6 harg6 arg7 harg7 arg8 harg8 arg9 harg9) K := by
  have hz : (![0, 0] : Fin 2 → ℕ) = fun _ => 0 := funext fun a => by fin_cases a <;> rfl
  simp only [cc0__gcn_body_eq_skeleton]; unfold cc0__gcn_body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, ⟨%fs1, %hfs1, HS1⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg8.eq_unread hfs0; obtain rfl := harg9.eq_unread hfs1
  sl_exec (disch := first | exact hc0 | exact hc1 | exact hc2)
  sl_step
  sl_unfold_run_names
  simp only [View.readAt_eq_ld, Memref.IsWhole.read_unread, View.ld_unit_zero (S := S200x10000) hz, View.ld_unit_zero (S := S10000x128) hz, View.ld_unit_zero (S := S128x128) hz, View.ld_unit_zero (S := S1x128) hz, View.ld_unit_zero (S := S200x128) hz, View.readCov_unit_zero (S := S10000x128) _ hz]
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact hf6
    iexact H6
  isplitl [HS0]
  · iexists _; isplitr; · ipureintro; exact harg8.read_unread _
    iexact HS0
  iexists _; isplitr; swap; · iexact HS1
  ipureintro
  exact harg9.read_writes_rows (k0_off1_inb i hc1) _ xh ho rfl rfl

end Cert.Kernel.Body

end
-- ==== Proof.Kernel.RunC.lean ====
/-
  The body at a point of the second sweep: both scratch buffers are only read, and the output's buffer is stored
  whole with the adjacency block times the projected hidden layer, plus the bias.
-/
import proofs.«155554_g23725399343418_cont_8to1_318_3_alg».proof.Proof.Kernel.Conds
import proofs.«155554_g23725399343418_cont_8to1_318_3_alg».proof.Proof.LibRows
import Idealize.ShloMosaic.Lib.Pipeline.Value

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At a point where only the third conditional is taken: everything is kept but the output's buffer, which ends at
    the block computed from the adjacency block, the second scratch's contents and the bias block. -/
theorem runC (c : Dev nD) (i : grid0.Coords) (arg1 : Memref sig .tc .vmem S200x10000 .f32) (harg1 : arg1.IsWhole) (arg2 : Memref sig .tc .vmem S10000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S200x128 .f32) (harg7 : arg7.IsWhole) (arg8 : Memref sig .tc .vmem S10000x128 .bf16) (harg8 : arg8.IsWhole) (arg9 : Memref sig .tc .vmem S10000x128 .bf16) (harg9 : arg9.IsWhole) (hc0 : ¬isFirst i) (hc1 : ¬inSweep0 i) (hc2 : inSweep1 i)
    (x0 : Vec F S200x10000 .f32) (x1 : Vec F S10000x128 .f32) (x2 : Vec F S128x128 .f32) (x3 : Vec F S1x128 .f32) (x4 : Vec F S128x128 .f32) (x5 : Vec F S1x128 .f32) (xp : Vec F S10000x128 .bf16) (xh : Vec F S10000x128 .bf16) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ owns (c : Thread nD τ) arg8 fullShare xp ∗ owns (c : Thread nD τ) arg9 fullShare xh
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (k0_pay4 x0 xh x5) ∗ owns (c : Thread nD τ) arg8 fullShare xp
            ∗ owns (c : Thread nD τ) arg9 fullShare xh) -∗ K ⟨⟩))
      ⊢ wp frame (wpE (defs₀ (F := F)) Variants.none c none) E (cc0__gcn_body i arg1 harg1 arg2 harg2 arg3 harg3 arg4 harg4 arg5 harg5 arg6 harg6 arg7 harg7 arg8 harg8 arg9 harg9) K := by
  have hz : (![0, 0] : Fin 2 → ℕ) = fun _ => 0 := funext fun a => by fin_cases a <;> rfl
  simp only [cc0__gcn_body_eq_skeleton]; unfold cc0__gcn_body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, ⟨%fs1, %hfs1, HS1⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg8.eq_unread hfs0; obtain rfl := harg9.eq_unread hfs1
  sl_exec (disch := first | exact hc0 | exact hc1 | exact hc2)
  sl_step
  sl_unfold_run_names
  simp only [View.readAt_eq_ld, Memref.IsWhole.read_unread, View.ld_unit_zero (S := S200x10000) hz, View.ld_unit_zero (S := S10000x128) hz, View.ld_unit_zero (S := S128x128) hz, View.ld_unit_zero (S := S1x128) hz, View.ld_unit_zero (S := S200x128) hz, View.readCov_unit_zero (S := S10000x128) _ hz]
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; swap; · iexact H6
    ipureintro; funext y; exact View.read_writes_cons_unit_of_mem _ _ _ _ [] y y rfl (fun a => by fin_cases a <;> simp)
  isplitl [HS0]
  · iexists _; isplitr; · ipureintro; exact harg8.read_unread _
    iexact HS0
  iexists _; isplitr; · ipureintro; exact harg9.read_unread _
  iexact HS1

end Cert.Kernel.Body

end
-- ==== Proof.Kernel.Oblig.lean ====
/-
  The body obligation at every grid point. The first point stores the projection and the first slab; a later point
  of the first sweep stores its slab over what the second scratch held, so the rows filled so far grow by 200; a point
  of the second sweep finds every row filled and stores the output block. The output's buffer is handed back as it was
  found during the first sweep, where the window is idle.
-/
import proofs.«155554_g23725399343418_cont_8to1_318_3_alg».proof.Proof.Kernel.Data
import proofs.«155554_g23725399343418_cont_8to1_318_3_alg».proof.Proof.Kernel.RunA
import proofs.«155554_g23725399343418_cont_8to1_318_3_alg».proof.Proof.Kernel.RunB
import proofs.«155554_g23725399343418_cont_8to1_318_3_alg».proof.Proof.Kernel.RunC

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The position of an index of the slab [o, o + 200) within it is the row modulo 200 when o is a multiple of 200. -/
theorem unitLocal_eq_slabIx (y : S10000x128.Idx) (n : ℕ)
    (h : ∀ a : Fin 2, (![200 * n, 0] : Fin 2 → ℕ) a ≤ (y a).val ∧ (y a).val < (![200 * n, 0] : Fin 2 → ℕ) a + S200x128.size a) :
    Rect.unitLocal (s := S10000x128) (off := ![200 * n, 0]) (size := S200x128.size) y h = slabIx y := by
  have h0 := h (0 : Fin 2)
  funext a
  match a with
  | ⟨0, _⟩ =>
    apply Fin.ext
    show (y (0 : Fin 2)).val - 200 * n = (y (0 : Fin 2)).val % 200
    have e1 : (![200 * n, 0] : Fin 2 → ℕ) (0 : Fin 2) = 200 * n := rfl
    have e2 : S200x128.size (0 : Fin 2) = 200 := rfl
    rw [e1, e2] at h0
    omega
  | ⟨1, _⟩ =>
    apply Fin.ext
    show (y (1 : Fin 2)).val - 0 = (y (1 : Fin 2)).val
    omega

/-- One more slab: contents that agree with the projected hidden layer below row 200·t, with the rows
    [200·t, 200·t + 200) replaced by point t's slab, agree with it below row 200·(t + 1). -/
theorem slab_step (c : Dev nD) (t : Fin cfg0.N) (xh : Vec F S10000x128 .bf16)
    (hprev : ∀ y : S10000x128.Idx, (y (0 : Fin 2)).val < 200 * t.val → xh y = hidP m c y) :
    ∀ y : S10000x128.Idx, (y (0 : Fin 2)).val < 200 * (t.val + 1) →
      putRows (d := S10000x128.size) (200 * t.val) 200 S200x128.size rfl rfl xh (k0_pay3 (iblk m c 0 t) (projP m c) (iblk m c 3 t0) (iblk m c 4 t0)) y = hidP m c y := by
  intro y hy
  by_cases hh : 200 * t.val ≤ (y (0 : Fin 2)).val ∧ (y (0 : Fin 2)).val < 200 * t.val + 200
  · refine (putRows_of_mem (d := S10000x128.size) (200 * t.val) 200 S200x128.size rfl rfl xh (k0_pay3 (iblk m c 0 t) (projP m c) (iblk m c 3 t0) (iblk m c 4 t0)) y hh).trans ?_
    rw [unitLocal_eq_slabIx y t.val]
    have e1 : slabPt y = t := Fin.ext (by show (y (0 : Fin 2)).val / 200 = t.val; omega)
    unfold hidP; rw [e1]
  · exact (putRows_of_not_mem (d := S10000x128.size) (200 * t.val) 200 S200x128.size rfl rfl xh (k0_pay3 (iblk m c 0 t) (projP m c) (iblk m c 3 t0) (iblk m c 4 t0)) y hh).trans (hprev y (by omega))

/-- What the body is called with at point t, the windows one by one, -/
def bodyPre (c : Dev nD) (t : Fin cfg0.N) : sProp 𝕄 :=
  iprop((dats m 0 c).Φ t.castSucc ∗ (dats m 0 c).owesAt () t.castSucc
    ∗ (∃ d, owns (c : Thread nD τ) (sm0 t) fullShare ((dats m 0 c).before 0 t d))
    ∗ (∃ d, owns (c : Thread nD τ) (sm1 t) fullShare ((dats m 0 c).before 1 t d))
    ∗ (∃ d, owns (c : Thread nD τ) (sm2 t) fullShare ((dats m 0 c).before 2 t d))
    ∗ (∃ d, owns (c : Thread nD τ) (sm3 t) fullShare ((dats m 0 c).before 3 t d))
    ∗ (∃ d, owns (c : Thread nD τ) (sm4 t) fullShare ((dats m 0 c).before 4 t d))
    ∗ (∃ d, owns (c : Thread nD τ) (sm5 t) fullShare ((dats m 0 c).before 5 t d))
    ∗ (∃ d, owns (c : Thread nD τ) (sm6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

set_option maxHeartbeats 4000000 in
/-- The body at any point, by the sweep the point lies in. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5]
  rw [show (dats m 0 c).owesAt () t.succ = (dats m 0 c).owesAt () t.castSucc from rfl]
  rw [Phi_succ' m c t, Phi_castSucc m c t, Phi_succ]
  rw [show (dats m 0 c).leavesExact 0 t = owns (c : Thread nD τ) (sm0 t) fullShare ((dats m 0 c).after 0 t) from by
    unfold Dat.leavesExact; rw [live0 t], after0]
  rw [show (dats m 0 c).leavesExact 1 t = owns (c : Thread nD τ) (sm1 t) fullShare ((dats m 0 c).after 1 t) from by
    unfold Dat.leavesExact; rw [live1 t], after1]
  rw [show (dats m 0 c).leavesExact 2 t = owns (c : Thread nD τ) (sm2 t) fullShare ((dats m 0 c).after 2 t) from by
    unfold Dat.leavesExact; rw [live2 t], after2]
  rw [show (dats m 0 c).leavesExact 3 t = owns (c : Thread nD τ) (sm3 t) fullShare ((dats m 0 c).after 3 t) from by
    unfold Dat.leavesExact; rw [live3 t], after3]
  rw [show (dats m 0 c).leavesExact 4 t = owns (c : Thread nD τ) (sm4 t) fullShare ((dats m 0 c).after 4 t) from by
    unfold Dat.leavesExact; rw [live4 t], after4]
  rw [show (dats m 0 c).leavesExact 5 t = owns (c : Thread nD τ) (sm5 t) fullShare ((dats m 0 c).after 5 t) from by
    unfold Dat.leavesExact; rw [live5 t], after5]
  rw [iblk1_const m c t, iblk2_const m c t, iblk3_const m c t, iblk4_const m c t, iblk5_const m c t]
  have hN : t.val < 100 := lt_of_lt_of_eq t.isLt (show cfg0.N = 100 from N_0)
  by_cases h1 : t.val < 50
  · have hfl : (cfg0.win 6).flush t = false := Bool.eq_false_iff.mpr (fun h => absurd ((flush6_iff t).mp h) (by omega))
    rw [Dat.leavesExact_idle (dats m 0 c) 6 t ((idle6_iff t).mpr h1) hfl]
    by_cases h0 : t.val = 0
    · rw [show Phi m c t.val = Pipeline.ΦA spec0 c from by rw [h0]; rfl, PhiA_eq]
      iintro ⟨⟨⟨HS0, ⟨%xh, HS1⟩⟩, Hg⟩, Ho, ⟨%d0, H0⟩, ⟨%d1, H1⟩, ⟨%d2, H2⟩, ⟨%d3, H3⟩, ⟨%d4, H4⟩, ⟨%d5, H5⟩, ⟨%d6, H6⟩⟩
      iapply (runA c (grid0.coords t) (sm0 t) (hsm0 t) (sm1 t) (hsm1 t) (sm2 t) (hsm2 t) (sm3 t) (hsm3 t) (sm4 t) (hsm4 t) (sm5 t) (hsm5 t) (sm6 t) (hsm6 t) scrP (Memref.isWhole_whole _) scrH (Memref.isWhole_whole _) ((isFirst_iff t).mpr h0) ((inSweep0_iff t).mpr h1) (fun h => absurd ((inSweep1_iff t).mp h) (by omega)) (200 * t.val) (sliceOff_eq t h1) (iblk m c 0 t) (iblk m c 1 t0) (iblk m c 2 t0) (iblk m c 3 t0) (iblk m c 4 t0) (iblk m c 5 t0) ((dats m 0 c).before 6 t d6) xh Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      isplitl [HS1]; · iexact HS1
      iintro ⟨H0, H1, H2, H3, H4, H5, H6, HS0, HS1⟩
      isplitl [HS0 HS1 Hg]
      · isplitl [HS0 HS1]
        · isplitl [HS0]; · iexact HS0
          iexists _; isplitr; swap; · iexact HS1
          ipureintro
          exact slab_step m c t xh (fun y hy => absurd hy (by omega))
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
    · rw [Phi_pos m c t.val h0]
      iintro ⟨⟨⟨HS0, ⟨%xh, %hxh, HS1⟩⟩, Hg⟩, Ho, ⟨%d0, H0⟩, ⟨%d1, H1⟩, ⟨%d2, H2⟩, ⟨%d3, H3⟩, ⟨%d4, H4⟩, ⟨%d5, H5⟩, ⟨%d6, H6⟩⟩
      iapply (runB c (grid0.coords t) (sm0 t) (hsm0 t) (sm1 t) (hsm1 t) (sm2 t) (hsm2 t) (sm3 t) (hsm3 t) (sm4 t) (hsm4 t) (sm5 t) (hsm5 t) (sm6 t) (hsm6 t) scrP (Memref.isWhole_whole _) scrH (Memref.isWhole_whole _) (fun h => h0 ((isFirst_iff t).mp h)) ((inSweep0_iff t).mpr h1) (fun h => absurd ((inSweep1_iff t).mp h) (by omega)) (200 * t.val) (sliceOff_eq t h1) (iblk m c 0 t) (iblk m c 1 t0) (iblk m c 2 t0) (iblk m c 3 t0) (iblk m c 4 t0) (iblk m c 5 t0) ((dats m 0 c).before 6 t d6) (projP m c) xh Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      isplitl [HS1]; · iexact HS1
      iintro ⟨H0, H1, H2, H3, H4, H5, H6, HS0, HS1⟩
      isplitl [HS0 HS1 Hg]
      · isplitl [HS0 HS1]
        · isplitl [HS0]; · iexact HS0
          iexists _; isplitr; swap; · iexact HS1
          ipureintro
          exact slab_step m c t xh hxh
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
  · have h0 : t.val ≠ 0 := by omega
    have hid : cfg0.idle 6 (grid0.coords t) = false := Bool.eq_false_iff.mpr (fun h => absurd ((idle6_iff t).mp h) h1)
    rw [show (dats m 0 c).leavesExact 6 t = owns (c : Thread nD τ) (sm6 t) fullShare ((dats m 0 c).after 6 t) from by
      unfold Dat.leavesExact; rw [hid], after6]
    rw [Phi_pos m c t.val h0]
    iintro ⟨⟨⟨HS0, ⟨%xh, %hxh, HS1⟩⟩, Hg⟩, Ho, ⟨%d0, H0⟩, ⟨%d1, H1⟩, ⟨%d2, H2⟩, ⟨%d3, H3⟩, ⟨%d4, H4⟩, ⟨%d5, H5⟩, ⟨%d6, H6⟩⟩
    obtain rfl : xh = hidP m c := funext fun y => hxh y (by have := row_lt y; omega)
    unfold outBlk
    iapply (runC c (grid0.coords t) (sm0 t) (hsm0 t) (sm1 t) (hsm1 t) (sm2 t) (hsm2 t) (sm3 t) (hsm3 t) (sm4 t) (hsm4 t) (sm5 t) (hsm5 t) (sm6 t) (hsm6 t) scrP (Memref.isWhole_whole _) scrH (Memref.isWhole_whole _) (fun h => h0 ((isFirst_iff t).mp h)) (fun h => h1 ((inSweep0_iff t).mp h)) ((inSweep1_iff t).mpr (by omega)) (iblk m c 0 t) (iblk m c 1 t0) (iblk m c 2 t0) (iblk m c 3 t0) (iblk m c 4 t0) (iblk m c 5 t0) (projP m c) (hidP m c) Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [HS0]; · iexact HS0
    isplitl [HS1]; · iexact HS1
    iintro ⟨H0, H1, H2, H3, H4, H5, H6, HS0, HS1⟩
    isplitl [HS0 HS1 Hg]
    · isplitl [HS0 HS1]
      · isplitl [HS0]; · iexact HS0
        iexists _; isplitr; swap; · iexact HS1
        ipureintro
        exact fun y _ => rfl
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6

/-- The library's body obligation, at every point. -/
theorem body_obligation (c : Dev nD) : BodyObligation (dats (F := F) m 0 c) (defs₀ (F := F)) Variants.none () Set.univ := fun t => by
  rw [bigSep_W0, bigSep_W0]
  exact sound_body m c t

end Cert.Kernel.Body

end
-- ==== Proof.Kernel.Launch.lean ====
/-
  The run of the whole program from the body obligation: the class invariant is the tracking invariant before the
  first point, and after the last point the tracking invariant gives the class invariant back (the scratch buffers'
  named contents are forgotten). The frame claim follows from the run's post read at the argument arrays.
-/
import proofs.«155554_g23725399343418_cont_8to1_318_3_alg».proof.Proof.Kernel.Oblig

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the launch hands the region is the invariant before the first point. -/
theorem hin (c : Dev nD) : Pipeline.ΦA spec0 c ⊢ (dats m 0 c).Φ 0 := by
  rw [show (dats m 0 c).Φ 0 = Phi m c 0 from rfl, Phi_zero]
  try exact Idealize.SL.BI.Entails.refl _

/-- After the last point the invariant gives the class invariant back. -/
theorem hout (c : Dev nD) : (dats m 0 c).Φ (Fin.last cfg0.N) ⊢ Pipeline.ΦA spec0 c := by
  rw [show (dats m 0 c).Φ (Fin.last cfg0.N) = Phi m c (Fin.last cfg0.N).val from rfl,
    Phi_pos m c _ (by rw [Fin.val_last]; have : cfg0.N = 100 := N_0; omega), PhiA_eq]
  iintro ⟨⟨HS0, ⟨%d, -, HS1⟩⟩, Hg⟩
  isplitl [HS0 HS1]
  · isplitl [HS0]
    · iexists _; iexact HS0
    iexists _; iexact HS1
  iexact Hg

set_option backward.isDefEq.respectTransparency.types false in
/-- Every weakly fair execution of the program terminates, and every final state has every array of the pipeline at what
    the proof data computes (an input at its entry contents, the output at the blocks written back) and every other
    unscoped buffer at its region-entry contents. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c w => by unfold Dat.share; split <;> rfl)
    (howed := fun _ _ => rfl) (V := V m) (hmain := hmain m Variants.none) (hA := A_eq m) (hin := hin m) (hout := hout m)

/-- The frame: the program runs and its argument arrays end unchanged, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

end Cert.Kernel.Body

end
-- ==== Proof.KernelIdeal.Conds.lean ====
/-
  The three branch conditions of the kernel body, decided over the grid: the first holds at point 0 only
  (the projection x·W0 is computed once), the second at points 0..49 (the first sweep over the adjacency
  row blocks), the third at points 50..99 (the second sweep). The output window is idle during the first
  sweep and is written back at every point of the second. Also the staging memrefs the pipeline hands the
  body at a point, and the two scratch buffers as whole memrefs.
-/
import proofs.«155554_g23725399343418_cont_8to1_318_3_alg».proof.Proof.Gen.KernelIdeal.Frame
import proofs.«155554_g23725399343418_cont_8to1_318_3_alg».proof.Proof.Gen.KernelIdeal.Skeleton

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The first conditional's condition: the point is the grid's first. -/
abbrev isFirst (i : grid0.Coords) : Prop := (Scalar.cmpi .ne (Scalar.extui (Scalar.cmpi .eq (BitVec.ofNat 32 (i 0).val) 0#32)) 0#32) = 1#1
theorem isFirst_iff : ∀ t : Fin cfg0.N, isFirst (grid0.coords t) ↔ t.val = 0 :=
  (by decide +kernel : ∀ t : Fin grid0.N, isFirst (grid0.coords t) ↔ t.val = 0)

/-- The second conditional's condition: the point lies in the first sweep. -/
abbrev inSweep0 (i : grid0.Coords) : Prop := k0_cond2 i = 1#1
theorem inSweep0_iff : ∀ t : Fin cfg0.N, inSweep0 (grid0.coords t) ↔ t.val < 50 :=
  (by decide +kernel : ∀ t : Fin grid0.N, inSweep0 (grid0.coords t) ↔ t.val < 50)

/-- The third conditional's condition: the point lies in the second sweep. -/
abbrev inSweep1 (i : grid0.Coords) : Prop := k0_cond3 i = 1#1
theorem inSweep1_iff : ∀ t : Fin cfg0.N, inSweep1 (grid0.coords t) ↔ 50 ≤ t.val :=
  (by decide +kernel : ∀ t : Fin grid0.N, inSweep1 (grid0.coords t) ↔ 50 ≤ t.val)

/-- The slice of the second scratch the first sweep fills at point t: rows [200 t, 200 t + 200). -/
theorem sliceOff_eq : ∀ t : Fin cfg0.N, t.val < 50 → k0_off1 (grid0.coords t) = ![200 * t.val, 0] :=
  (by decide +kernel : ∀ t : Fin grid0.N, t.val < 50 → k0_off1 (grid0.coords t) = ![200 * t.val, 0])

/-- The input windows are never idle. -/
theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
theorem live4 : ∀ t : Fin cfg0.N, cfg0.idle 4 (grid0.coords t) = false := by decide +kernel
theorem live5 : ∀ t : Fin cfg0.N, cfg0.idle 5 (grid0.coords t) = false := by decide +kernel
/-- The output window is idle exactly during the first sweep, -/
theorem idle6_iff : ∀ t : Fin cfg0.N, cfg0.idle 6 (grid0.coords t) = true ↔ t.val < 50 :=
  (by decide +kernel : ∀ t : Fin grid0.N, cfg0.idle 6 (grid0.coords t) = true ↔ t.val < 50)
/-- and written back exactly at the points of the second. -/
theorem flush6_iff : ∀ t : Fin cfg0.N, (cfg0.win 6).flush t = true ↔ 50 ≤ t.val :=
  (by decide +kernel : ∀ t : Fin grid0.N, win0_6.flush t = true ↔ 50 ≤ t.val)

/-- Each window's current staging memref at point t, as the pipeline passes it, and its wholeness. -/
abbrev sm0 (t : Fin cfg0.N) : Memref sig .tc .vmem S200x10000 .f32 := win0_0.stage (cfg0.slots t 0)
abbrev hsm0 (t : Fin cfg0.N) : (sm0 t).IsWhole := hstage0_0 ((cfg0.slots t 0).cast nbuf0_0)
abbrev sm1 (t : Fin cfg0.N) : Memref sig .tc .vmem S10000x128 .f32 := win0_1.stage (cfg0.slots t 1)
abbrev hsm1 (t : Fin cfg0.N) : (sm1 t).IsWhole := hstage0_1 ((cfg0.slots t 1).cast nbuf0_1)
abbrev sm2 (t : Fin cfg0.N) : Memref sig .tc .vmem S128x128 .f32 := win0_2.stage (cfg0.slots t 2)
abbrev hsm2 (t : Fin cfg0.N) : (sm2 t).IsWhole := hstage0_2 ((cfg0.slots t 2).cast nbuf0_2)
abbrev sm3 (t : Fin cfg0.N) : Memref sig .tc .vmem S1x128 .f32 := win0_3.stage (cfg0.slots t 3)
abbrev hsm3 (t : Fin cfg0.N) : (sm3 t).IsWhole := hstage0_3 ((cfg0.slots t 3).cast nbuf0_3)
abbrev sm4 (t : Fin cfg0.N) : Memref sig .tc .vmem S128x128 .f32 := win0_4.stage (cfg0.slots t 4)
abbrev hsm4 (t : Fin cfg0.N) : (sm4 t).IsWhole := hstage0_4 ((cfg0.slots t 4).cast nbuf0_4)
abbrev sm5 (t : Fin cfg0.N) : Memref sig .tc .vmem S1x128 .f32 := win0_5.stage (cfg0.slots t 5)
abbrev hsm5 (t : Fin cfg0.N) : (sm5 t).IsWhole := hstage0_5 ((cfg0.slots t 5).cast nbuf0_5)
abbrev sm6 (t : Fin cfg0.N) : Memref sig .tc .vmem S200x128 .f32 := win0_6.stage (cfg0.slots t 6)
abbrev hsm6 (t : Fin cfg0.N) : (sm6 t).IsWhole := hstage0_6 ((cfg0.slots t 6).cast nbuf0_6)
/-- The two scratch buffers: the first holds the projection x·W0, the second the projected hidden layer. -/
abbrev scrP : Memref sig .tc .vmem S10000x128 .bf16 := Memref.whole cc0_scratch0
abbrev scrH : Memref sig .tc .vmem S10000x128 .bf16 := Memref.whole cc0_scratch1

/-- The region's class invariant with the two scratch buffers as memrefs owned at some contents. -/
theorem PhiA_eq (c : Dev nD) :
    (Pipeline.ΦA spec0 c : sProp 𝕄)
      = iprop(iprop((∃ d, owns (c : Thread nD τ) scrP fullShare d) ∗ (∃ d, owns (c : Thread nD τ) scrH fullShare d)) ∗ (∃ r, prngReg c r)) := by
  unfold Pipeline.ΦA; rw [scopedRest0_eq]; simp only [scrP, scrH, owns_whole]; try rfl

end Cert.KernelIdeal.Body

end
-- ==== Proof.KernelIdeal.Data.lean ====
/-
  The pipeline's proof data. The first scratch holds, from the first point on, the projection P = x·W0 computed from
  the x and W0 blocks; the second scratch is filled one 200-row slab per point of the first sweep, so after point n
  its rows below 200·(n+1) hold the projected hidden layer Hp and the rows above hold whatever they held, which the
  invariant does not name; from point 50 on every row is filled. The output block written at a point of the second
  sweep is the adjacency block times Hp plus the bias block.
-/
import proofs.«155554_g23725399343418_cont_8to1_318_3_alg».proof.Proof.KernelIdeal.Conds
import proofs.«155554_g23725399343418_cont_8to1_318_3_alg».proof.Proof.LibRows

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The grid's first point. -/
abbrev t0 : Fin cfg0.N := ⟨0, by decide⟩

/-- The projection x·W0, as the body computes it from the x and W0 blocks (each the whole array). -/
def projP (c : Dev nD) : Vec F S10000x128 .bf16 := k0_pay1 (iblk m c 1 t0) (iblk m c 2 t0)

theorem row_lt (y : S10000x128.Idx) : (y (0 : Fin 2)).val < 10000 := (y (0 : Fin 2)).isLt

/-- The grid point of the first sweep that fills row y's slab. -/
def slabPt (y : S10000x128.Idx) : Fin cfg0.N := ⟨(y (0 : Fin 2)).val / 200, by have := row_lt y; have hN : cfg0.N = 100 := N_0; omega⟩

/-- An index's position within its slab. -/
def slabIx (y : S10000x128.Idx) : (a : Fin 2) → Fin (S200x128.size a) :=
  fun a => match a with
    | ⟨0, _⟩ => ⟨(y (0 : Fin 2)).val % 200, Nat.mod_lt _ (by decide)⟩
    | ⟨1, _⟩ => ⟨(y (1 : Fin 2)).val, (y (1 : Fin 2)).isLt⟩

/-- The projected hidden layer, every row: row y's slab computed from the adjacency block of the slab's point, the
    projection, and the b0 and W1 blocks. -/
def hidP (c : Dev nD) : Vec F S10000x128 .bf16 := fun y =>
  k0_pay3 (iblk m c 0 (slabPt y)) (projP m c) (iblk m c 3 t0) (iblk m c 4 t0) (slabIx y)

/-- The output block the second sweep writes at point t. -/
def outBlk (c : Dev nD) (t : Fin cfg0.N) : Vec F S200x128 .f32 := k0_pay4 (iblk m c 0 t) (hidP m c) (iblk m c 5 t)

/-- The region's invariant before position n: before the first point the class's (both scratch buffers at anything);
    afterwards the first scratch at the projection, the second at SOME contents that agree with the projected hidden
    layer on the rows filled so far, and the generator register at some state. -/
def Phi (c : Dev nD) : ℕ → sProp 𝕄
  | 0 => Pipeline.ΦA spec0 c
  | n + 1 => iprop(iprop(owns (c : Thread nD τ) scrP fullShare (projP m c)
      ∗ (∃ d : Vec F S10000x128 .bf16, ⌜∀ y : S10000x128.Idx, (y (0 : Fin 2)).val < 200 * (n + 1) → d y = hidP m c y⌝ ∗ owns (c : Thread nD τ) scrH fullShare d))
      ∗ (∃ r, prngReg c r))

theorem Phi_zero (c : Dev nD) : Phi m c 0 = Pipeline.ΦA spec0 c := rfl

theorem Phi_succ (c : Dev nD) (n : ℕ) :
    Phi m c (n + 1) = iprop(iprop(owns (c : Thread nD τ) scrP fullShare (projP m c)
      ∗ (∃ d : Vec F S10000x128 .bf16, ⌜∀ y : S10000x128.Idx, (y (0 : Fin 2)).val < 200 * (n + 1) → d y = hidP m c y⌝ ∗ owns (c : Thread nD τ) scrH fullShare d))
      ∗ (∃ r, prngReg c r)) := rfl

theorem Phi_pos (c : Dev nD) (n : ℕ) (hn : n ≠ 0) :
    Phi m c n = iprop(iprop(owns (c : Thread nD τ) scrP fullShare (projP m c)
      ∗ (∃ d : Vec F S10000x128 .bf16, ⌜∀ y : S10000x128.Idx, (y (0 : Fin 2)).val < 200 * n → d y = hidP m c y⌝ ∗ owns (c : Thread nD τ) scrH fullShare d))
      ∗ (∃ r, prngReg c r)) := by
  cases n with
  | zero => exact absurd rfl hn
  | succ n => rfl

/-- The proof data of the one pipeline on core c: the arrays as the region finds them; after the body at point t each
    input's buffer at its block and the output's at the block the second sweep writes; the invariant above; nothing
    owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outBlk m c t
  Φ t := Phi m c t.val
  q _ := fullShare
  owed _ := 0

theorem A_eq (c : Dev nD) (w : Fin cfg0.W) : (dats m 0 c).A w = V m c (Pipeline.arrRef spec0 w) := by
  dsimp only [dats]

theorem Phi_castSucc (c : Dev nD) (t : Fin cfg0.N) : (dats m 0 c).Φ t.castSucc = Phi m c t.val := by
  dsimp only [dats]; simp only [Fin.coe_castSucc]

theorem Phi_succ' (c : Dev nD) (t : Fin cfg0.N) : (dats m 0 c).Φ t.succ = Phi m c (t.val + 1) := by
  dsimp only [dats]; simp only [Fin.val_succ]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = outBlk m c t := by dsimp only [dats]

/-- Each input's current staging buffer holds its block at every point, fetched there or not. -/
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d

/-- The whole-array windows' blocks do not depend on the point: their index maps are constant. -/
theorem iblk1_const (c : Dev nD) (t : Fin cfg0.N) : iblk m c 1 t = iblk m c 1 t0 := rfl
theorem iblk2_const (c : Dev nD) (t : Fin cfg0.N) : iblk m c 2 t = iblk m c 2 t0 := rfl
theorem iblk3_const (c : Dev nD) (t : Fin cfg0.N) : iblk m c 3 t = iblk m c 3 t0 := rfl
theorem iblk4_const (c : Dev nD) (t : Fin cfg0.N) : iblk m c 4 t = iblk m c 4 t0 := rfl
theorem iblk5_const (c : Dev nD) (t : Fin cfg0.N) : iblk m c 5 t = iblk m c 5 t0 := rfl

end Cert.KernelIdeal.Body

end
-- ==== Proof.KernelIdeal.RunA.lean ====
/-
  The body at the grid's first point: the projection x·W0 is stored whole into the first scratch, read back, and
  the first 200-row slab of the projected hidden layer is stored into the second scratch over whatever it held;
  the output's buffer is not touched.
-/
import proofs.«155554_g23725399343418_cont_8to1_318_3_alg».proof.Proof.KernelIdeal.Conds
import proofs.«155554_g23725399343418_cont_8to1_318_3_alg».proof.Proof.LibRows
import Idealize.ShloMosaic.Lib.Pipeline.Value

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At a point where the first two conditionals are taken and the third is not: the inputs' buffers are kept, the
    output's buffer is kept, the first scratch ends at the projection of the x and W0 blocks, and the second scratch
    at its old contents with the rows [o, o + 200) replaced by the slab computed from the adjacency block. -/
theorem runA (c : Dev nD) (i : grid0.Coords) (arg1 : Memref sig .tc .vmem S200x10000 .f32) (harg1 : arg1.IsWhole) (arg2 : Memref sig .tc .vmem S10000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S200x128 .f32) (harg7 : arg7.IsWhole) (arg8 : Memref sig .tc .vmem S10000x128 .bf16) (harg8 : arg8.IsWhole) (arg9 : Memref sig .tc .vmem S10000x128 .bf16) (harg9 : arg9.IsWhole) (hc0 : isFirst i) (hc1 : inSweep0 i) (hc2 : ¬inSweep1 i)
    (o : ℕ) (ho : k0_off1 i = ![o, 0])
    (x0 : Vec F S200x10000 .f32) (x1 : Vec F S10000x128 .f32) (x2 : Vec F S128x128 .f32) (x3 : Vec F S1x128 .f32) (x4 : Vec F S128x128 .f32) (x5 : Vec F S1x128 .f32) (x6 : Vec F S200x128 .f32) (xh : Vec F S10000x128 .bf16) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ owns (c : Thread nD τ) arg9 fullShare xh
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (k0_pay1 x1 x2)
            ∗ owns (c : Thread nD τ) arg9 fullShare (putRows o 200 S200x128.size rfl rfl xh (k0_pay3 x0 (k0_pay1 x1 x2) x3 x4))) -∗ K ⟨⟩))
      ⊢ wp frame (wpE (defs₀ (F := F)) Variants.none c none) E (cc0__gcn_body i arg1 harg1 arg2 harg2 arg3 harg3 arg4 harg4 arg5 harg5 arg6 harg6 arg7 harg7 arg8 harg8 arg9 harg9) K := by
  have hz : (![0, 0] : Fin 2 → ℕ) = fun _ => 0 := funext fun a => by fin_cases a <;> rfl
  simp only [cc0__gcn_body_eq_skeleton]; unfold cc0__gcn_body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds0, %fs0, -, HS0⟩, ⟨%fs1, %hfs1, HS1⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg9.eq_unread hfs1
  sl_exec (disch := first | exact hc0 | exact hc1 | exact hc2)
  sl_step
  sl_unfold_run_names
  simp only [View.readAt_eq_ld, Memref.IsWhole.read_unread, View.ld_unit_zero (S := S200x10000) hz, View.ld_unit_zero (S := S10000x128) hz, View.ld_unit_zero (S := S128x128) hz, View.ld_unit_zero (S := S1x128) hz, View.ld_unit_zero (S := S200x128) hz, View.readCov_unit_zero (S := S10000x128) _ hz]
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact hf6
    iexact H6
  isplitl [HS0]
  · iexists _; isplitr; swap; · iexact HS0
    ipureintro; funext y; exact View.read_writes_cons_unit_of_mem _ _ _ _ [] y y rfl (fun a => by fin_cases a <;> simp)
  iexists _; isplitr; swap; · iexact HS1
  ipureintro
  exact harg9.read_writes_rows (k0_off1_inb i hc1) _ xh ho rfl rfl

end Cert.KernelIdeal.Body

end
-- ==== Proof.KernelIdeal.RunB.lean ====
/-
  The body at a later point of the first sweep: the first scratch (the projection) is only read, and the point's
  200-row slab of the projected hidden layer is stored into the second scratch over what it held; the output's
  buffer is not touched.
-/
import proofs.«155554_g23725399343418_cont_8to1_318_3_alg».proof.Proof.KernelIdeal.Conds
import proofs.«155554_g23725399343418_cont_8to1_318_3_alg».proof.Proof.LibRows
import Idealize.ShloMosaic.Lib.Pipeline.Value

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At a point where only the second conditional is taken: everything is kept but the second scratch, which ends at
    its old contents with the rows [o, o + 200) replaced by the slab computed from the adjacency block and the
    projection the first scratch holds. -/
theorem runB (c : Dev nD) (i : grid0.Coords) (arg1 : Memref sig .tc .vmem S200x10000 .f32) (harg1 : arg1.IsWhole) (arg2 : Memref sig .tc .vmem S10000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S200x128 .f32) (harg7 : arg7.IsWhole) (arg8 : Memref sig .tc .vmem S10000x128 .bf16) (harg8 : arg8.IsWhole) (arg9 : Memref sig .tc .vmem S10000x128 .bf16) (harg9 : arg9.IsWhole) (hc0 : ¬isFirst i) (hc1 : inSweep0 i) (hc2 : ¬inSweep1 i)
    (o : ℕ) (ho : k0_off1 i = ![o, 0])
    (x0 : Vec F S200x10000 .f32) (x1 : Vec F S10000x128 .f32) (x2 : Vec F S128x128 .f32) (x3 : Vec F S1x128 .f32) (x4 : Vec F S128x128 .f32) (x5 : Vec F S1x128 .f32) (x6 : Vec F S200x128 .f32) (xp : Vec F S10000x128 .bf16) (xh : Vec F S10000x128 .bf16) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare xp ∗ owns (c : Thread nD τ) arg9 fullShare xh
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare xp
            ∗ owns (c : Thread nD τ) arg9 fullShare (putRows o 200 S200x128.size rfl rfl xh (k0_pay3 x0 xp x3 x4))) -∗ K ⟨⟩))
      ⊢ wp frame (wpE (defs₀ (F := F)) Variants.none c none) E (cc0__gcn_body i arg1 harg1 arg2 harg2 arg3 harg3 arg4 harg4 arg5 harg5 arg6 harg6 arg7 harg7 arg8 harg8 arg9 harg9) K := by
  have hz : (![0, 0] : Fin 2 → ℕ) = fun _ => 0 := funext fun a => by fin_cases a <;> rfl
  simp only [cc0__gcn_body_eq_skeleton]; unfold cc0__gcn_body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, ⟨%fs1, %hfs1, HS1⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg8.eq_unread hfs0; obtain rfl := harg9.eq_unread hfs1
  sl_exec (disch := first | exact hc0 | exact hc1 | exact hc2)
  sl_step
  sl_unfold_run_names
  simp only [View.readAt_eq_ld, Memref.IsWhole.read_unread, View.ld_unit_zero (S := S200x10000) hz, View.ld_unit_zero (S := S10000x128) hz, View.ld_unit_zero (S := S128x128) hz, View.ld_unit_zero (S := S1x128) hz, View.ld_unit_zero (S := S200x128) hz, View.readCov_unit_zero (S := S10000x128) _ hz]
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact hf6
    iexact H6
  isplitl [HS0]
  · iexists _; isplitr; · ipureintro; exact harg8.read_unread _
    iexact HS0
  iexists _; isplitr; swap; · iexact HS1
  ipureintro
  exact harg9.read_writes_rows (k0_off1_inb i hc1) _ xh ho rfl rfl

end Cert.KernelIdeal.Body

end
-- ==== Proof.KernelIdeal.RunC.lean ====
/-
  The body at a point of the second sweep: both scratch buffers are only read, and the output's buffer is stored
  whole with the adjacency block times the projected hidden layer, plus the bias.
-/
import proofs.«155554_g23725399343418_cont_8to1_318_3_alg».proof.Proof.KernelIdeal.Conds
import proofs.«155554_g23725399343418_cont_8to1_318_3_alg».proof.Proof.LibRows
import Idealize.ShloMosaic.Lib.Pipeline.Value

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At a point where only the third conditional is taken: everything is kept but the output's buffer, which ends at
    the block computed from the adjacency block, the second scratch's contents and the bias block. -/
theorem runC (c : Dev nD) (i : grid0.Coords) (arg1 : Memref sig .tc .vmem S200x10000 .f32) (harg1 : arg1.IsWhole) (arg2 : Memref sig .tc .vmem S10000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S200x128 .f32) (harg7 : arg7.IsWhole) (arg8 : Memref sig .tc .vmem S10000x128 .bf16) (harg8 : arg8.IsWhole) (arg9 : Memref sig .tc .vmem S10000x128 .bf16) (harg9 : arg9.IsWhole) (hc0 : ¬isFirst i) (hc1 : ¬inSweep0 i) (hc2 : inSweep1 i)
    (x0 : Vec F S200x10000 .f32) (x1 : Vec F S10000x128 .f32) (x2 : Vec F S128x128 .f32) (x3 : Vec F S1x128 .f32) (x4 : Vec F S128x128 .f32) (x5 : Vec F S1x128 .f32) (xp : Vec F S10000x128 .bf16) (xh : Vec F S10000x128 .bf16) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ owns (c : Thread nD τ) arg8 fullShare xp ∗ owns (c : Thread nD τ) arg9 fullShare xh
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (k0_pay4 x0 xh x5) ∗ owns (c : Thread nD τ) arg8 fullShare xp
            ∗ owns (c : Thread nD τ) arg9 fullShare xh) -∗ K ⟨⟩))
      ⊢ wp frame (wpE (defs₀ (F := F)) Variants.none c none) E (cc0__gcn_body i arg1 harg1 arg2 harg2 arg3 harg3 arg4 harg4 arg5 harg5 arg6 harg6 arg7 harg7 arg8 harg8 arg9 harg9) K := by
  have hz : (![0, 0] : Fin 2 → ℕ) = fun _ => 0 := funext fun a => by fin_cases a <;> rfl
  simp only [cc0__gcn_body_eq_skeleton]; unfold cc0__gcn_body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, ⟨%fs1, %hfs1, HS1⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg8.eq_unread hfs0; obtain rfl := harg9.eq_unread hfs1
  sl_exec (disch := first | exact hc0 | exact hc1 | exact hc2)
  sl_step
  sl_unfold_run_names
  simp only [View.readAt_eq_ld, Memref.IsWhole.read_unread, View.ld_unit_zero (S := S200x10000) hz, View.ld_unit_zero (S := S10000x128) hz, View.ld_unit_zero (S := S128x128) hz, View.ld_unit_zero (S := S1x128) hz, View.ld_unit_zero (S := S200x128) hz, View.readCov_unit_zero (S := S10000x128) _ hz]
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; swap; · iexact H6
    ipureintro; funext y; exact View.read_writes_cons_unit_of_mem _ _ _ _ [] y y rfl (fun a => by fin_cases a <;> simp)
  isplitl [HS0]
  · iexists _; isplitr; · ipureintro; exact harg8.read_unread _
    iexact HS0
  iexists _; isplitr; · ipureintro; exact harg9.read_unread _
  iexact HS1

end Cert.KernelIdeal.Body

end
-- ==== Proof.KernelIdeal.Oblig.lean ====
/-
  The body obligation at every grid point. The first point stores the projection and the first slab; a later point
  of the first sweep stores its slab over what the second scratch held, so the rows filled so far grow by 200; a point
  of the second sweep finds every row filled and stores the output block. The output's buffer is handed back as it was
  found during the first sweep, where the window is idle.
-/
import proofs.«155554_g23725399343418_cont_8to1_318_3_alg».proof.Proof.KernelIdeal.Data
import proofs.«155554_g23725399343418_cont_8to1_318_3_alg».proof.Proof.KernelIdeal.RunA
import proofs.«155554_g23725399343418_cont_8to1_318_3_alg».proof.Proof.KernelIdeal.RunB
import proofs.«155554_g23725399343418_cont_8to1_318_3_alg».proof.Proof.KernelIdeal.RunC

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The position of an index of the slab [o, o + 200) within it is the row modulo 200 when o is a multiple of 200. -/
theorem unitLocal_eq_slabIx (y : S10000x128.Idx) (n : ℕ)
    (h : ∀ a : Fin 2, (![200 * n, 0] : Fin 2 → ℕ) a ≤ (y a).val ∧ (y a).val < (![200 * n, 0] : Fin 2 → ℕ) a + S200x128.size a) :
    Rect.unitLocal (s := S10000x128) (off := ![200 * n, 0]) (size := S200x128.size) y h = slabIx y := by
  have h0 := h (0 : Fin 2)
  funext a
  match a with
  | ⟨0, _⟩ =>
    apply Fin.ext
    show (y (0 : Fin 2)).val - 200 * n = (y (0 : Fin 2)).val % 200
    have e1 : (![200 * n, 0] : Fin 2 → ℕ) (0 : Fin 2) = 200 * n := rfl
    have e2 : S200x128.size (0 : Fin 2) = 200 := rfl
    rw [e1, e2] at h0
    omega
  | ⟨1, _⟩ =>
    apply Fin.ext
    show (y (1 : Fin 2)).val - 0 = (y (1 : Fin 2)).val
    omega

/-- One more slab: contents that agree with the projected hidden layer below row 200·t, with the rows
    [200·t, 200·t + 200) replaced by point t's slab, agree with it below row 200·(t + 1). -/
theorem slab_step (c : Dev nD) (t : Fin cfg0.N) (xh : Vec F S10000x128 .bf16)
    (hprev : ∀ y : S10000x128.Idx, (y (0 : Fin 2)).val < 200 * t.val → xh y = hidP m c y) :
    ∀ y : S10000x128.Idx, (y (0 : Fin 2)).val < 200 * (t.val + 1) →
      putRows (d := S10000x128.size) (200 * t.val) 200 S200x128.size rfl rfl xh (k0_pay3 (iblk m c 0 t) (projP m c) (iblk m c 3 t0) (iblk m c 4 t0)) y = hidP m c y := by
  intro y hy
  by_cases hh : 200 * t.val ≤ (y (0 : Fin 2)).val ∧ (y (0 : Fin 2)).val < 200 * t.val + 200
  · refine (putRows_of_mem (d := S10000x128.size) (200 * t.val) 200 S200x128.size rfl rfl xh (k0_pay3 (iblk m c 0 t) (projP m c) (iblk m c 3 t0) (iblk m c 4 t0)) y hh).trans ?_
    rw [unitLocal_eq_slabIx y t.val]
    have e1 : slabPt y = t := Fin.ext (by show (y (0 : Fin 2)).val / 200 = t.val; omega)
    unfold hidP; rw [e1]
  · exact (putRows_of_not_mem (d := S10000x128.size) (200 * t.val) 200 S200x128.size rfl rfl xh (k0_pay3 (iblk m c 0 t) (projP m c) (iblk m c 3 t0) (iblk m c 4 t0)) y hh).trans (hprev y (by omega))

/-- What the body is called with at point t, the windows one by one, -/
def bodyPre (c : Dev nD) (t : Fin cfg0.N) : sProp 𝕄 :=
  iprop((dats m 0 c).Φ t.castSucc ∗ (dats m 0 c).owesAt () t.castSucc
    ∗ (∃ d, owns (c : Thread nD τ) (sm0 t) fullShare ((dats m 0 c).before 0 t d))
    ∗ (∃ d, owns (c : Thread nD τ) (sm1 t) fullShare ((dats m 0 c).before 1 t d))
    ∗ (∃ d, owns (c : Thread nD τ) (sm2 t) fullShare ((dats m 0 c).before 2 t d))
    ∗ (∃ d, owns (c : Thread nD τ) (sm3 t) fullShare ((dats m 0 c).before 3 t d))
    ∗ (∃ d, owns (c : Thread nD τ) (sm4 t) fullShare ((dats m 0 c).before 4 t d))
    ∗ (∃ d, owns (c : Thread nD τ) (sm5 t) fullShare ((dats m 0 c).before 5 t d))
    ∗ (∃ d, owns (c : Thread nD τ) (sm6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

set_option maxHeartbeats 4000000 in
/-- The body at any point, by the sweep the point lies in. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5]
  rw [show (dats m 0 c).owesAt () t.succ = (dats m 0 c).owesAt () t.castSucc from rfl]
  rw [Phi_succ' m c t, Phi_castSucc m c t, Phi_succ]
  rw [show (dats m 0 c).leavesExact 0 t = owns (c : Thread nD τ) (sm0 t) fullShare ((dats m 0 c).after 0 t) from by
    unfold Dat.leavesExact; rw [live0 t], after0]
  rw [show (dats m 0 c).leavesExact 1 t = owns (c : Thread nD τ) (sm1 t) fullShare ((dats m 0 c).after 1 t) from by
    unfold Dat.leavesExact; rw [live1 t], after1]
  rw [show (dats m 0 c).leavesExact 2 t = owns (c : Thread nD τ) (sm2 t) fullShare ((dats m 0 c).after 2 t) from by
    unfold Dat.leavesExact; rw [live2 t], after2]
  rw [show (dats m 0 c).leavesExact 3 t = owns (c : Thread nD τ) (sm3 t) fullShare ((dats m 0 c).after 3 t) from by
    unfold Dat.leavesExact; rw [live3 t], after3]
  rw [show (dats m 0 c).leavesExact 4 t = owns (c : Thread nD τ) (sm4 t) fullShare ((dats m 0 c).after 4 t) from by
    unfold Dat.leavesExact; rw [live4 t], after4]
  rw [show (dats m 0 c).leavesExact 5 t = owns (c : Thread nD τ) (sm5 t) fullShare ((dats m 0 c).after 5 t) from by
    unfold Dat.leavesExact; rw [live5 t], after5]
  rw [iblk1_const m c t, iblk2_const m c t, iblk3_const m c t, iblk4_const m c t, iblk5_const m c t]
  have hN : t.val < 100 := lt_of_lt_of_eq t.isLt (show cfg0.N = 100 from N_0)
  by_cases h1 : t.val < 50
  · have hfl : (cfg0.win 6).flush t = false := Bool.eq_false_iff.mpr (fun h => absurd ((flush6_iff t).mp h) (by omega))
    rw [Dat.leavesExact_idle (dats m 0 c) 6 t ((idle6_iff t).mpr h1) hfl]
    by_cases h0 : t.val = 0
    · rw [show Phi m c t.val = Pipeline.ΦA spec0 c from by rw [h0]; rfl, PhiA_eq]
      iintro ⟨⟨⟨HS0, ⟨%xh, HS1⟩⟩, Hg⟩, Ho, ⟨%d0, H0⟩, ⟨%d1, H1⟩, ⟨%d2, H2⟩, ⟨%d3, H3⟩, ⟨%d4, H4⟩, ⟨%d5, H5⟩, ⟨%d6, H6⟩⟩
      iapply (runA c (grid0.coords t) (sm0 t) (hsm0 t) (sm1 t) (hsm1 t) (sm2 t) (hsm2 t) (sm3 t) (hsm3 t) (sm4 t) (hsm4 t) (sm5 t) (hsm5 t) (sm6 t) (hsm6 t) scrP (Memref.isWhole_whole _) scrH (Memref.isWhole_whole _) ((isFirst_iff t).mpr h0) ((inSweep0_iff t).mpr h1) (fun h => absurd ((inSweep1_iff t).mp h) (by omega)) (200 * t.val) (sliceOff_eq t h1) (iblk m c 0 t) (iblk m c 1 t0) (iblk m c 2 t0) (iblk m c 3 t0) (iblk m c 4 t0) (iblk m c 5 t0) ((dats m 0 c).before 6 t d6) xh Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      isplitl [HS1]; · iexact HS1
      iintro ⟨H0, H1, H2, H3, H4, H5, H6, HS0, HS1⟩
      isplitl [HS0 HS1 Hg]
      · isplitl [HS0 HS1]
        · isplitl [HS0]; · iexact HS0
          iexists _; isplitr; swap; · iexact HS1
          ipureintro
          exact slab_step m c t xh (fun y hy => absurd hy (by omega))
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
    · rw [Phi_pos m c t.val h0]
      iintro ⟨⟨⟨HS0, ⟨%xh, %hxh, HS1⟩⟩, Hg⟩, Ho, ⟨%d0, H0⟩, ⟨%d1, H1⟩, ⟨%d2, H2⟩, ⟨%d3, H3⟩, ⟨%d4, H4⟩, ⟨%d5, H5⟩, ⟨%d6, H6⟩⟩
      iapply (runB c (grid0.coords t) (sm0 t) (hsm0 t) (sm1 t) (hsm1 t) (sm2 t) (hsm2 t) (sm3 t) (hsm3 t) (sm4 t) (hsm4 t) (sm5 t) (hsm5 t) (sm6 t) (hsm6 t) scrP (Memref.isWhole_whole _) scrH (Memref.isWhole_whole _) (fun h => h0 ((isFirst_iff t).mp h)) ((inSweep0_iff t).mpr h1) (fun h => absurd ((inSweep1_iff t).mp h) (by omega)) (200 * t.val) (sliceOff_eq t h1) (iblk m c 0 t) (iblk m c 1 t0) (iblk m c 2 t0) (iblk m c 3 t0) (iblk m c 4 t0) (iblk m c 5 t0) ((dats m 0 c).before 6 t d6) (projP m c) xh Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      isplitl [HS1]; · iexact HS1
      iintro ⟨H0, H1, H2, H3, H4, H5, H6, HS0, HS1⟩
      isplitl [HS0 HS1 Hg]
      · isplitl [HS0 HS1]
        · isplitl [HS0]; · iexact HS0
          iexists _; isplitr; swap; · iexact HS1
          ipureintro
          exact slab_step m c t xh hxh
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
  · have h0 : t.val ≠ 0 := by omega
    have hid : cfg0.idle 6 (grid0.coords t) = false := Bool.eq_false_iff.mpr (fun h => absurd ((idle6_iff t).mp h) h1)
    rw [show (dats m 0 c).leavesExact 6 t = owns (c : Thread nD τ) (sm6 t) fullShare ((dats m 0 c).after 6 t) from by
      unfold Dat.leavesExact; rw [hid], after6]
    rw [Phi_pos m c t.val h0]
    iintro ⟨⟨⟨HS0, ⟨%xh, %hxh, HS1⟩⟩, Hg⟩, Ho, ⟨%d0, H0⟩, ⟨%d1, H1⟩, ⟨%d2, H2⟩, ⟨%d3, H3⟩, ⟨%d4, H4⟩, ⟨%d5, H5⟩, ⟨%d6, H6⟩⟩
    obtain rfl : xh = hidP m c := funext fun y => hxh y (by have := row_lt y; omega)
    unfold outBlk
    iapply (runC c (grid0.coords t) (sm0 t) (hsm0 t) (sm1 t) (hsm1 t) (sm2 t) (hsm2 t) (sm3 t) (hsm3 t) (sm4 t) (hsm4 t) (sm5 t) (hsm5 t) (sm6 t) (hsm6 t) scrP (Memref.isWhole_whole _) scrH (Memref.isWhole_whole _) (fun h => h0 ((isFirst_iff t).mp h)) (fun h => h1 ((inSweep0_iff t).mp h)) ((inSweep1_iff t).mpr (by omega)) (iblk m c 0 t) (iblk m c 1 t0) (iblk m c 2 t0) (iblk m c 3 t0) (iblk m c 4 t0) (iblk m c 5 t0) (projP m c) (hidP m c) Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [HS0]; · iexact HS0
    isplitl [HS1]; · iexact HS1
    iintro ⟨H0, H1, H2, H3, H4, H5, H6, HS0, HS1⟩
    isplitl [HS0 HS1 Hg]
    · isplitl [HS0 HS1]
      · isplitl [HS0]; · iexact HS0
        iexists _; isplitr; swap; · iexact HS1
        ipureintro
        exact fun y _ => rfl
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6

/-- The library's body obligation, at every point. -/
theorem body_obligation (c : Dev nD) : BodyObligation (dats (F := F) m 0 c) (defs₀ (F := F)) Variants.none () Set.univ := fun t => by
  rw [bigSep_W0, bigSep_W0]
  exact sound_body m c t

end Cert.KernelIdeal.Body

end
-- ==== Proof.KernelIdeal.Launch.lean ====
/-
  The run of the whole program from the body obligation: the class invariant is the tracking invariant before the
  first point, and after the last point the tracking invariant gives the class invariant back (the scratch buffers'
  named contents are forgotten). The frame claim follows from the run's post read at the argument arrays.
-/
import proofs.«155554_g23725399343418_cont_8to1_318_3_alg».proof.Proof.KernelIdeal.Oblig

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the launch hands the region is the invariant before the first point. -/
theorem hin (c : Dev nD) : Pipeline.ΦA spec0 c ⊢ (dats m 0 c).Φ 0 := by
  rw [show (dats m 0 c).Φ 0 = Phi m c 0 from rfl, Phi_zero]
  try exact Idealize.SL.BI.Entails.refl _

/-- After the last point the invariant gives the class invariant back. -/
theorem hout (c : Dev nD) : (dats m 0 c).Φ (Fin.last cfg0.N) ⊢ Pipeline.ΦA spec0 c := by
  rw [show (dats m 0 c).Φ (Fin.last cfg0.N) = Phi m c (Fin.last cfg0.N).val from rfl,
    Phi_pos m c _ (by rw [Fin.val_last]; have : cfg0.N = 100 := N_0; omega), PhiA_eq]
  iintro ⟨⟨HS0, ⟨%d, -, HS1⟩⟩, Hg⟩
  isplitl [HS0 HS1]
  · isplitl [HS0]
    · iexists _; iexact HS0
    iexists _; iexact HS1
  iexact Hg

set_option backward.isDefEq.respectTransparency.types false in
/-- Every weakly fair execution of the program terminates, and every final state has every array of the pipeline at what
    the proof data computes (an input at its entry contents, the output at the blocks written back) and every other
    unscoped buffer at its region-entry contents. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c w => by unfold Dat.share; split <;> rfl)
    (howed := fun _ _ => rfl) (V := V m) (hmain := hmain m Variants.none) (hA := A_eq m) (hin := hin m) (hout := hout m)

/-- The frame: the program runs and its argument arrays end unchanged, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

end Cert.KernelIdeal.Body

end
-- ==== Proof.KernelIdeal.Blocks.lean ====
/-
  From blocks to arrays. An adjacency block at point t is rows [200·(t mod 50), +200) of the adjacency array; the
  x, W0, W1 blocks are the whole arrays; each bias block is the bias vector reshaped to one row by the host before the
  region. The output block written back at point t ≥ 50 is rows [200·(t − 50), +200) of the result array, and these
  fifty blocks tile it: so if every written block is its block of ONE whole-array function, the array ends holding it.
-/
import proofs.«155554_g23725399343418_cont_8to1_318_3_alg».proof.Proof.KernelIdeal.Launch
import Idealize.ShloMosaic.Lib.Pipeline.Value
import Idealize.ShloMosaic.Lib.ValueIdx
import Idealize.ShloMosaic.Lib.StableHlo.Run

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

variable (m : (ℓ : Loc nD τ sig) → Buf (Elt F) ℓ) (ρ : Dev nD → PrngReg)

/-- The adjacency window's block index at point t is (t mod 50, 0); the output window's is (t − 50, 0). -/
theorem idx_facts : ∀ t : Fin cfg0.N, win0_0.index t (0 : Fin 2) = t.val % 50 ∧ win0_0.index t (1 : Fin 2) = 0
    ∧ win0_6.index t (0 : Fin 2) = t.val - 50 ∧ win0_6.index t (1 : Fin 2) = 0 :=
  (by decide +kernel : ∀ t : Fin grid0.N, _)

/-- An adjacency block read at (r, s) is the adjacency array at row 200·(t mod 50) + r. -/
theorem adjBlk_apply (c : Dev nD) (t : Fin cfg0.N) (r : Fin 200) (s : Fin 10000) :
    iblk m c 0 t (ix2 r s) = V m c main_arg1 (ix2 (⟨200 * (t.val % 50) + r.val, by omega⟩ : Fin 10000) s) := by
  obtain ⟨e0, e1, -, -⟩ := idx_facts t
  show V m c main_arg1 (((cfg0.win 0).blk t).view.emb (ix2 r s)) = _
  congr 1
  funext a; apply Fin.ext
  match a with
  | ⟨0, _⟩ => show win0_0.index t (0 : Fin 2) * 200 + 1 * r.val = 200 * (t.val % 50) + r.val; omega
  | ⟨1, _⟩ => show win0_0.index t (1 : Fin 2) * 10000 + 1 * s.val = s.val; omega

/-- The x, W0 and W1 blocks are the whole arrays. -/
theorem xBlk_eq (c : Dev nD) : (iblk m c 1 t0 : S10000x128.Idx → Elt F .f32) = V m c main_arg0 := by
  funext j
  show V m c main_arg0 (((cfg0.win 1).blk t0).view.emb j) = V m c main_arg0 j
  congr 1
  funext a; apply Fin.ext
  match a with
  | ⟨0, _⟩ => show 0 * 10000 + 1 * (j 0).val = (j 0).val; omega
  | ⟨1, _⟩ => show 0 * 128 + 1 * (j 1).val = (j 1).val; omega
theorem w0Blk_eq (c : Dev nD) : (iblk m c 2 t0 : S128x128.Idx → Elt F .f32) = V m c main_arg2 := by
  funext j
  show V m c main_arg2 (((cfg0.win 2).blk t0).view.emb j) = V m c main_arg2 j
  congr 1
  funext a; apply Fin.ext
  match a with
  | ⟨0, _⟩ => show 0 * 128 + 1 * (j 0).val = (j 0).val; omega
  | ⟨1, _⟩ => show 0 * 128 + 1 * (j 1).val = (j 1).val; omega
theorem w1Blk_eq (c : Dev nD) : (iblk m c 4 t0 : S128x128.Idx → Elt F .f32) = V m c main_arg4 := by
  funext j
  show V m c main_arg4 (((cfg0.win 4).blk t0).view.emb j) = V m c main_arg4 j
  congr 1
  funext a; apply Fin.ext
  match a with
  | ⟨0, _⟩ => show 0 * 128 + 1 * (j 0).val = (j 0).val; omega
  | ⟨1, _⟩ => show 0 * 128 + 1 * (j 1).val = (j 1).val; omega
/-- The bias blocks are the one-row arrays the host wrote before the region. -/
theorem b0Blk_eq (c : Dev nD) : (iblk m c 3 t0 : S1x128.Idx → Elt F .f32) = V m c main_call0_v0 := by
  funext j
  show V m c main_call0_v0 (((cfg0.win 3).blk t0).view.emb j) = V m c main_call0_v0 j
  congr 1
  funext a; apply Fin.ext
  match a with
  | ⟨0, _⟩ => show 0 * 1 + 1 * (j 0).val = (j 0).val; omega
  | ⟨1, _⟩ => show 0 * 128 + 1 * (j 1).val = (j 1).val; omega
theorem b1Blk_eq (c : Dev nD) : (iblk m c 5 t0 : S1x128.Idx → Elt F .f32) = V m c main_call0_v1 := by
  funext j
  show V m c main_call0_v1 (((cfg0.win 5).blk t0).view.emb j) = V m c main_call0_v1 j
  congr 1
  funext a; apply Fin.ext
  match a with
  | ⟨0, _⟩ => show 0 * 1 + 1 * (j 0).val = (j 0).val; omega
  | ⟨1, _⟩ => show 0 * 128 + 1 * (j 1).val = (j 1).val; omega

/-- What the host leaves in the first bias row: the bias vector, reshaped. -/
theorem b0Row_eq (c : Dev nD) : (V m c main_call0_v0 : S1x128.Idx → Elt F .f32)
    = shapeCast S1x128 (m ((c : Thread nD τ).loc main_arg3)) shapeCasts_S128_S1x128 := by
  dsimp only [V, hostOps0]; after_results; rfl
theorem b1Row_eq (c : Dev nD) : (V m c main_call0_v1 : S1x128.Idx → Elt F .f32)
    = shapeCast S1x128 (m ((c : Thread nD τ).loc main_arg5)) shapeCasts_S128_S1x128 := by
  dsimp only [V, hostOps0]; after_results; rfl

/-- What point t writes back is the output block. -/
theorem flushed6 (c : Dev nD) (t : Fin cfg0.N) : (dats m 0 c).flushed 6 t = outBlk m c t := by
  show (cfg0.win 6).cut (grid0.coords t) ((dats m 0 c).after 6 t) = _
  rw [after6]; rfl

/-- An index of the result array is in point t's block iff each coordinate is in the block's range on its axis. -/
theorem mem_blk6 (t : Fin cfg0.N) (i : S10000x128.Idx) :
    i ∈ ((cfg0.win 6).blk t).view.set ↔ ∀ a : Fin 2, win0_6.index t a * S200x128.size a ≤ (i a).val ∧ (i a).val < win0_6.index t a * S200x128.size a + S200x128.size a := by
  show i ∈ ((View.whole main_v0).slice (win0_6.rect t)).set ↔ _
  rw [View.set_slice_whole, Rect.mem_set_unit]
  exact Iff.rfl

/-- Every index of the result array is in the block of a point of the second sweep. -/
theorem cover6 (i : S10000x128.Idx) : ∃ t : Fin cfg0.N, (cfg0.win 6).flush t = true ∧ i ∈ ((cfg0.win 6).blk t).view.set := by
  have hi0 : (i 0).val < 10000 := (i 0).isLt
  have hi1 : (i 1).val < 128 := (i 1).isLt
  have hN : cfg0.N = 100 := N_0
  obtain ⟨t, ht⟩ : ∃ t : Fin cfg0.N, t.val = 50 + (i 0).val / 200 := ⟨⟨50 + (i 0).val / 200, by omega⟩, rfl⟩
  obtain ⟨-, -, e2, e3⟩ := idx_facts t
  refine ⟨t, (flush6_iff t).mpr (by omega), ?_⟩
  rw [mem_blk6]
  intro a
  match a with
  | ⟨0, _⟩ => show win0_6.index t (0 : Fin 2) * 200 ≤ (i 0).val ∧ (i 0).val < win0_6.index t (0 : Fin 2) * 200 + 200; omega
  | ⟨1, _⟩ => show win0_6.index t (1 : Fin 2) * 128 ≤ (i 1).val ∧ (i 1).val < win0_6.index t (1 : Fin 2) * 128 + 128; omega

/-- A block of a whole-array function read at (r, k) is the function at row 200·(t − 50) + r. -/
theorem blk6_read_apply (t : Fin cfg0.N) (ht : 50 ≤ t.val) (G : S10000x128.Idx → Elt F .f32) (r : Fin 200) (k : Fin 128) :
    ((cfg0.win 6).blk t).view.read (Elt F) G (ix2 r k)
      = G (ix2 (⟨200 * (t.val - 50) + r.val, by have hN : t.val < 100 := lt_of_lt_of_eq t.isLt (show cfg0.N = 100 from N_0); omega⟩ : Fin 10000) k) := by
  obtain ⟨-, -, e2, e3⟩ := idx_facts t
  show G (((cfg0.win 6).blk t).view.emb (ix2 r k)) = _
  congr 1
  funext a; apply Fin.ext
  match a with
  | ⟨0, _⟩ => show win0_6.index t (0 : Fin 2) * 200 + 1 * r.val = 200 * (t.val - 50) + r.val; omega
  | ⟨1, _⟩ => show win0_6.index t (1 : Fin 2) * 128 + 1 * k.val = k.val; omega

/-- The result array after the run is G, if every block the second sweep writes is its block of G. -/
theorem final6 (c : Dev nD) (G : S10000x128.Idx → Elt F .f32)
    (hG : ∀ t : Fin cfg0.N, 50 ≤ t.val → outBlk m c t = ((cfg0.win 6).blk t).view.read (Elt F) G) :
    (dats m 0 c).arrAt 6 cfg0.N = G :=
  (dats m 0 c).arrAt_eq_of_cover 6 G (fun t hf => (flushed6 m c t).trans (hG t ((flush6_iff t).mp hf))) cover6

/-- The run re-posted: the result array at what the proof data computes, the arguments unchanged. -/
theorem run_value : θ_run defs (onTc (τ := τ) (main (F := F))) ⟨m, fun _ => 0, ρ⟩ (fun r => ∀ c : Dev nD,
      r.2.mem ((c.tc : Thread nD τ).loc main_v0) = (dats m 0 c).arrAt 6 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨(h c).1 6,
      ((h c).1 1).trans (((dats m 0 c).arrAt_in 1 rfl _).trans ((A_eq m c 1).trans (V_main_arg0 m c))),
      ((h c).1 0).trans (((dats m 0 c).arrAt_in 0 rfl _).trans ((A_eq m c 0).trans (V_main_arg1 m c))),
      ((h c).1 2).trans (((dats m 0 c).arrAt_in 2 rfl _).trans ((A_eq m c 2).trans (V_main_arg2 m c))),
      ((h c).2 main_arg3 (Pipeline.mem_restRefs_of main_arg3 (by decide) (by decide))).trans (V_main_arg3 m c),
      ((h c).1 4).trans (((dats m 0 c).arrAt_in 4 rfl _).trans ((A_eq m c 4).trans (V_main_arg4 m c))),
      ((h c).2 main_arg5 (Pipeline.mem_restRefs_of main_arg5 (by decide) (by decide))).trans (V_main_arg5 m c)⟩)
    (run_main m ρ)

end Cert.KernelIdeal.Body

end
-- ==== Proof.KernelIdeal.Pay.lean ====
/-
  The kernel body's three stored values read at an index, on the extended reals: a change of float format is the
  identity, a matrix product into a zero accumulator is the sum over the contracted axis, the bias row is read at
  the column, the rectifier is max with the zero word.
-/
import proofs.«155554_g23725399343418_cont_8to1_318_3_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Pay

open Cert.KernelIdeal Cert.KernelIdeal.Gen Idealize.ShloMosaic Idealize.ShloMosaic.ValueIdx

/-! ## A matrix product into the zero accumulator, read at an index

For each of the three products: the left and right operand indices at an output index i and a contraction position q,
coordinate by coordinate (the non-contracted axis carries i's coordinate, the contracted axis carries q's one
coordinate), and from them the product at (p, q) as the sum over the contracted axis of left (p, k) times right (k, q). -/

/-! ### The projection's product: [10000,128] by [128,128] -/

private theorem lhs_mm1_0 (i : S10000x128.Idx) (q : dot_S10000x128_S128x128_S10000x128_1_0_0_1_n_n.contr.Idx) :
    (dot_S10000x128_S128x128_S10000x128_1_0_0_1_n_n.lhsIdx i q 0).val = (i 0).val := by
  unfold DotDims.lhsIdx
  rw [dif_neg (show ¬(0 : Fin S10000x128.rank) ∈ dot_S10000x128_S128x128_S10000x128_1_0_0_1_n_n.lhsBatch by decide), dif_pos (show (0 : Fin S10000x128.rank) ∈ dot_S10000x128_S128x128_S10000x128_1_0_0_1_n_n.lhsNonContracting by decide)]
  rfl
private theorem lhs_mm1_1 (i : S10000x128.Idx) (q : dot_S10000x128_S128x128_S10000x128_1_0_0_1_n_n.contr.Idx) :
    (dot_S10000x128_S128x128_S10000x128_1_0_0_1_n_n.lhsIdx i q 1).val = (q ⟨0, by decide⟩).val :=
  dot_S10000x128_S128x128_S10000x128_1_0_0_1_n_n.lhsIdx_val_of_single rfl i q
private theorem rhs_mm1_0 (i : S10000x128.Idx) (q : dot_S10000x128_S128x128_S10000x128_1_0_0_1_n_n.contr.Idx) :
    (dot_S10000x128_S128x128_S10000x128_1_0_0_1_n_n.rhsIdx i q 0).val = (q ⟨0, by decide⟩).val :=
  dot_S10000x128_S128x128_S10000x128_1_0_0_1_n_n.rhsIdx_val_of_single rfl i q
private theorem rhs_mm1_1 (i : S10000x128.Idx) (q : dot_S10000x128_S128x128_S10000x128_1_0_0_1_n_n.contr.Idx) :
    (dot_S10000x128_S128x128_S10000x128_1_0_0_1_n_n.rhsIdx i q 1).val = (i 1).val := by
  unfold DotDims.rhsIdx
  rw [dif_neg (show ¬(1 : Fin S128x128.rank) ∈ dot_S10000x128_S128x128_S10000x128_1_0_0_1_n_n.rhsBatch by decide), dif_pos (show (1 : Fin S128x128.rank) ∈ dot_S10000x128_S128x128_S10000x128_1_0_0_1_n_n.rhsNonContracting by decide)]
  rfl

/-- The product into the zero accumulator at row p, column q is the sum over the contracted axis. -/
private theorem mm1 (l : FVec Ideal S10000x128 .bf16) (r : FVec Ideal S128x128 .bf16) (p : Fin 10000) (q : Fin 128) :
    FloatOps.matmul dot_S10000x128_S128x128_S10000x128_1_0_0_1_n_n none l r (constant S10000x128 .f32 0x00000000#32) (ix2 p q)
      = ∑ k : Fin 128, l (ix2 p k) * r (ix2 k q) := by
  rw [Ideal.matmul_constant_zero_apply, ← Equiv.sum_comp (contrEquiv1 dot_S10000x128_S128x128_S10000x128_1_0_0_1_n_n 128 rfl rfl).symm]
  refine Finset.sum_congr rfl fun k _ => ?_
  have hk := contrEquiv1_symm_val dot_S10000x128_S128x128_S10000x128_1_0_0_1_n_n 128 rfl rfl k
  have el : dot_S10000x128_S128x128_S10000x128_1_0_0_1_n_n.lhsIdx (ix2 p q) ((contrEquiv1 dot_S10000x128_S128x128_S10000x128_1_0_0_1_n_n 128 rfl rfl).symm k) = ix2 p k := funext fun a => Fin.ext (by
    match a with
    | ⟨0, _⟩ => exact lhs_mm1_0 _ _
    | ⟨1, _⟩ => exact (lhs_mm1_1 _ _).trans hk)
  have er : dot_S10000x128_S128x128_S10000x128_1_0_0_1_n_n.rhsIdx (ix2 p q) ((contrEquiv1 dot_S10000x128_S128x128_S10000x128_1_0_0_1_n_n 128 rfl rfl).symm k) = ix2 k q := funext fun a => Fin.ext (by
    match a with
    | ⟨0, _⟩ => exact (rhs_mm1_0 _ _).trans hk
    | ⟨1, _⟩ => exact rhs_mm1_1 _ _)
  rw [el, er]

/-! ### The aggregation's product: [200,10000] by [10000,128] -/

private theorem lhs_mm2_0 (i : S200x128.Idx) (q : dot_S200x10000_S10000x128_S200x128_1_0_0_1_n_n.contr.Idx) :
    (dot_S200x10000_S10000x128_S200x128_1_0_0_1_n_n.lhsIdx i q 0).val = (i 0).val := by
  unfold DotDims.lhsIdx
  rw [dif_neg (show ¬(0 : Fin S200x10000.rank) ∈ dot_S200x10000_S10000x128_S200x128_1_0_0_1_n_n.lhsBatch by decide), dif_pos (show (0 : Fin S200x10000.rank) ∈ dot_S200x10000_S10000x128_S200x128_1_0_0_1_n_n.lhsNonContracting by decide)]
  rfl
private theorem lhs_mm2_1 (i : S200x128.Idx) (q : dot_S200x10000_S10000x128_S200x128_1_0_0_1_n_n.contr.Idx) :
    (dot_S200x10000_S10000x128_S200x128_1_0_0_1_n_n.lhsIdx i q 1).val = (q ⟨0, by decide⟩).val :=
  dot_S200x10000_S10000x128_S200x128_1_0_0_1_n_n.lhsIdx_val_of_single rfl i q
private theorem rhs_mm2_0 (i : S200x128.Idx) (q : dot_S200x10000_S10000x128_S200x128_1_0_0_1_n_n.contr.Idx) :
    (dot_S200x10000_S10000x128_S200x128_1_0_0_1_n_n.rhsIdx i q 0).val = (q ⟨0, by decide⟩).val :=
  dot_S200x10000_S10000x128_S200x128_1_0_0_1_n_n.rhsIdx_val_of_single rfl i q
private theorem rhs_mm2_1 (i : S200x128.Idx) (q : dot_S200x10000_S10000x128_S200x128_1_0_0_1_n_n.contr.Idx) :
    (dot_S200x10000_S10000x128_S200x128_1_0_0_1_n_n.rhsIdx i q 1).val = (i 1).val := by
  unfold DotDims.rhsIdx
  rw [dif_neg (show ¬(1 : Fin S10000x128.rank) ∈ dot_S200x10000_S10000x128_S200x128_1_0_0_1_n_n.rhsBatch by decide), dif_pos (show (1 : Fin S10000x128.rank) ∈ dot_S200x10000_S10000x128_S200x128_1_0_0_1_n_n.rhsNonContracting by decide)]
  rfl

/-- The product into the zero accumulator at row p, column q is the sum over the contracted axis. -/
private theorem mm2 (l : FVec Ideal S200x10000 .bf16) (r : FVec Ideal S10000x128 .bf16) (p : Fin 200) (q : Fin 128) :
    FloatOps.matmul dot_S200x10000_S10000x128_S200x128_1_0_0_1_n_n none l r (constant S200x128 .f32 0x00000000#32) (ix2 p q)
      = ∑ k : Fin 10000, l (ix2 p k) * r (ix2 k q) := by
  rw [Ideal.matmul_constant_zero_apply, ← Equiv.sum_comp (contrEquiv1 dot_S200x10000_S10000x128_S200x128_1_0_0_1_n_n 10000 rfl rfl).symm]
  refine Finset.sum_congr rfl fun k _ => ?_
  have hk := contrEquiv1_symm_val dot_S200x10000_S10000x128_S200x128_1_0_0_1_n_n 10000 rfl rfl k
  have el : dot_S200x10000_S10000x128_S200x128_1_0_0_1_n_n.lhsIdx (ix2 p q) ((contrEquiv1 dot_S200x10000_S10000x128_S200x128_1_0_0_1_n_n 10000 rfl rfl).symm k) = ix2 p k := funext fun a => Fin.ext (by
    match a with
    | ⟨0, _⟩ => exact lhs_mm2_0 _ _
    | ⟨1, _⟩ => exact (lhs_mm2_1 _ _).trans hk)
  have er : dot_S200x10000_S10000x128_S200x128_1_0_0_1_n_n.rhsIdx (ix2 p q) ((contrEquiv1 dot_S200x10000_S10000x128_S200x128_1_0_0_1_n_n 10000 rfl rfl).symm k) = ix2 k q := funext fun a => Fin.ext (by
    match a with
    | ⟨0, _⟩ => exact (rhs_mm2_0 _ _).trans hk
    | ⟨1, _⟩ => exact rhs_mm2_1 _ _)
  rw [el, er]

/-! ### The second projection's product: [200,128] by [128,128] -/

private theorem lhs_mm3_0 (i : S200x128.Idx) (q : dot_S200x128_S128x128_S200x128_1_0_0_1_n_n.contr.Idx) :
    (dot_S200x128_S128x128_S200x128_1_0_0_1_n_n.lhsIdx i q 0).val = (i 0).val := by
  unfold DotDims.lhsIdx
  rw [dif_neg (show ¬(0 : Fin S200x128.rank) ∈ dot_S200x128_S128x128_S200x128_1_0_0_1_n_n.lhsBatch by decide), dif_pos (show (0 : Fin S200x128.rank) ∈ dot_S200x128_S128x128_S200x128_1_0_0_1_n_n.lhsNonContracting by decide)]
  rfl
private theorem lhs_mm3_1 (i : S200x128.Idx) (q : dot_S200x128_S128x128_S200x128_1_0_0_1_n_n.contr.Idx) :
    (dot_S200x128_S128x128_S200x128_1_0_0_1_n_n.lhsIdx i q 1).val = (q ⟨0, by decide⟩).val :=
  dot_S200x128_S128x128_S200x128_1_0_0_1_n_n.lhsIdx_val_of_single rfl i q
private theorem rhs_mm3_0 (i : S200x128.Idx) (q : dot_S200x128_S128x128_S200x128_1_0_0_1_n_n.contr.Idx) :
    (dot_S200x128_S128x128_S200x128_1_0_0_1_n_n.rhsIdx i q 0).val = (q ⟨0, by decide⟩).val :=
  dot_S200x128_S128x128_S200x128_1_0_0_1_n_n.rhsIdx_val_of_single rfl i q
private theorem rhs_mm3_1 (i : S200x128.Idx) (q : dot_S200x128_S128x128_S200x128_1_0_0_1_n_n.contr.Idx) :
    (dot_S200x128_S128x128_S200x128_1_0_0_1_n_n.rhsIdx i q 1).val = (i 1).val := by
  unfold DotDims.rhsIdx
  rw [dif_neg (show ¬(1 : Fin S128x128.rank) ∈ dot_S200x128_S128x128_S200x128_1_0_0_1_n_n.rhsBatch by decide), dif_pos (show (1 : Fin S128x128.rank) ∈ dot_S200x128_S128x128_S200x128_1_0_0_1_n_n.rhsNonContracting by decide)]
  rfl

/-- The product into the zero accumulator at row p, column q is the sum over the contracted axis. -/
private theorem mm3 (l : FVec Ideal S200x128 .bf16) (r : FVec Ideal S128x128 .bf16) (p : Fin 200) (q : Fin 128) :
    FloatOps.matmul dot_S200x128_S128x128_S200x128_1_0_0_1_n_n none l r (constant S200x128 .f32 0x00000000#32) (ix2 p q)
      = ∑ k : Fin 128, l (ix2 p k) * r (ix2 k q) := by
  rw [Ideal.matmul_constant_zero_apply, ← Equiv.sum_comp (contrEquiv1 dot_S200x128_S128x128_S200x128_1_0_0_1_n_n 128 rfl rfl).symm]
  refine Finset.sum_congr rfl fun k _ => ?_
  have hk := contrEquiv1_symm_val dot_S200x128_S128x128_S200x128_1_0_0_1_n_n 128 rfl rfl k
  have el : dot_S200x128_S128x128_S200x128_1_0_0_1_n_n.lhsIdx (ix2 p q) ((contrEquiv1 dot_S200x128_S128x128_S200x128_1_0_0_1_n_n 128 rfl rfl).symm k) = ix2 p k := funext fun a => Fin.ext (by
    match a with
    | ⟨0, _⟩ => exact lhs_mm3_0 _ _
    | ⟨1, _⟩ => exact (lhs_mm3_1 _ _).trans hk)
  have er : dot_S200x128_S128x128_S200x128_1_0_0_1_n_n.rhsIdx (ix2 p q) ((contrEquiv1 dot_S200x128_S128x128_S200x128_1_0_0_1_n_n 128 rfl rfl).symm k) = ix2 k q := funext fun a => Fin.ext (by
    match a with
    | ⟨0, _⟩ => exact (rhs_mm3_0 _ _).trans hk
    | ⟨1, _⟩ => exact rhs_mm3_1 _ _)
  rw [el, er]

/-! ### The three stored values -/

/-- The projection x·W0 at row s, column j. -/
theorem pay1_apply (x : Vec Ideal S10000x128 .f32) (w : Vec Ideal S128x128 .f32) (s : Fin 10000) (j : Fin 128) :
    k0_pay1 (F := Ideal) x w (ix2 s j) = ∑ k : Fin 128, x (ix2 s k) * w (ix2 k j) := by
  unfold k0_pay1
  rw [shapeCast_self]
  exact mm1 _ _ s j

/-- The aggregated row plus the bias: the sum over the contracted axis, then the bias row read at the column. -/
private theorem agg_apply (a : Vec Ideal S200x10000 .f32) (p : Vec Ideal S10000x128 .bf16) (b : Vec Ideal S1x128 .f32) (r : Fin 200) (k : Fin 128) :
    addf (matmul (φ₁ := .bf16) (φ₂ := .bf16) dot_S200x10000_S10000x128_S200x128_1_0_0_1_n_n none (k0_pay2 (F := Ideal) a) p (constant S200x128 .f32 0x00000000#32))
        (broadcastTo S200x128 (shapeCast S1x128 b shapeCasts_S1x128_S1x128) broadcasts_S1x128_S200x128) (ix2 r k)
      = (∑ s : Fin 10000, a (ix2 r s) * p (ix2 s k)) + b (ix2 (0 : Fin 1) k) := by
  rw [addf_apply, shapeCast_self, ValueIdx.broadcastTo_1b_ab_apply]
  exact congrArg (· + b (ix2 (0 : Fin 1) k)) (mm2 _ _ r k)

/-- A slab of the projected hidden layer at its row r, column k. -/
theorem pay3_apply (a : Vec Ideal S200x10000 .f32) (p : Vec Ideal S10000x128 .bf16) (b : Vec Ideal S1x128 .f32) (w : Vec Ideal S128x128 .f32)
    (r : Fin 200) (k : Fin 128) :
    k0_pay3 (F := Ideal) a p b w (ix2 r k)
      = ∑ j : Fin 128, max ((∑ s : Fin 10000, a (ix2 r s) * p (ix2 s j)) + b (ix2 (0 : Fin 1) j)) (Ideal.ofBits .f32 0x00000000#32) * w (ix2 j k) := by
  unfold k0_pay3
  rw [shapeCast_self]
  refine (mm3 _ _ r k).trans ?_
  refine Finset.sum_congr rfl fun j _ => ?_
  refine congrArg (· * w (ix2 j k)) ?_
  refine (maximumf_apply _ _ (ix2 r j)).trans ?_
  rw [agg_apply a p b r j]
  rfl

/-- An output block at its row r, column k. -/
theorem pay4_apply (a : Vec Ideal S200x10000 .f32) (h : Vec Ideal S10000x128 .bf16) (b : Vec Ideal S1x128 .f32) (r : Fin 200) (k : Fin 128) :
    k0_pay4 (F := Ideal) a h b (ix2 r k) = (∑ s : Fin 10000, a (ix2 r s) * h (ix2 s k)) + b (ix2 (0 : Fin 1) k) := by
  unfold k0_pay4
  exact agg_apply a h b r k

end Cert.KernelIdeal.Pay

end
-- ==== Proof.Spec.lean ====
/-
  The two-layer graph convolution as ONE function of the argument arrays, index by index, on the extended reals:
    P0 s j  = Σ_k x[s,k] · W0[k,j]                       (the first projection)
    H  r j  = max (Σ_s adj[r,s] · P0 s j + b0[j]) 0       (the hidden layer after the rectifier)
    P1 s k  = Σ_j H s j · W1[j,k]                        (the hidden layer projected)
    out r k = Σ_s adj[r,s] · P1 s k + b1[k].
  The zero of the rectifier is kept as the float word both programs print; it is never evaluated.
-/
import Idealize.ShloMosaic.PureOps.Ideal
import Idealize.ShloMosaic.Lib.ValueIdx

noncomputable section

namespace Cert.GcnSpec

open Idealize.ShloMosaic Idealize.ShloMosaic.ValueIdx

/-- A rank-2 array of extended reals. -/
abbrev Mat (n0 n1 : Nat) : Type := (⟨2, ![n0, n1]⟩ : Shape).Idx → EReal
/-- A rank-1 array of extended reals. -/
abbrev Row (n : Nat) : Type := (⟨1, ![n]⟩ : Shape).Idx → EReal

/-- The rectifier's zero, as the float word. -/
abbrev zero : EReal := Ideal.ofBits .f32 0x00000000#32

/-- The first projection x·W0 at row s, column j. -/
def proj0 (x : Mat 10000 128) (W0 : Mat 128 128) (s : Fin 10000) (j : Fin 128) : EReal :=
  ∑ k : Fin 128, x (ix2 s k) * W0 (ix2 k j)

/-- The hidden layer max(adj·(x·W0) + b0, 0) at row r, column j. -/
def hidden (x : Mat 10000 128) (adj : Mat 10000 10000) (W0 : Mat 128 128) (b0 : Row 128) (r : Fin 10000) (j : Fin 128) : EReal :=
  max ((∑ s : Fin 10000, adj (ix2 r s) * proj0 x W0 s j) + b0 (ix1 j)) zero

/-- The hidden layer projected by W1 at row s, column k. -/
def proj1 (x : Mat 10000 128) (adj : Mat 10000 10000) (W0 : Mat 128 128) (b0 : Row 128) (W1 : Mat 128 128)
    (s : Fin 10000) (k : Fin 128) : EReal :=
  ∑ j : Fin 128, hidden x adj W0 b0 s j * W1 (ix2 j k)

/-- The result adj·(H·W1) + b1 at row r, column k. -/
def outAt (x : Mat 10000 128) (adj : Mat 10000 10000) (W0 : Mat 128 128) (b0 : Row 128) (W1 : Mat 128 128) (b1 : Row 128)
    (r : Fin 10000) (k : Fin 128) : EReal :=
  (∑ s : Fin 10000, adj (ix2 r s) * proj1 x adj W0 b0 W1 s k) + b1 (ix1 k)

/-- The whole result array. -/
def out (x : Mat 10000 128) (adj : Mat 10000 10000) (W0 : Mat 128 128) (b0 : Row 128) (W1 : Mat 128 128) (b1 : Row 128) :
    Mat 10000 128 :=
  fun i => outAt x adj W0 b0 W1 b1 (i 0) (i 1)

end Cert.GcnSpec

end
-- ==== Proof.KernelIdeal.Bridge.lean ====
/-
  The kernel's tracked values are the specification's. The projection the first point stores is x·W0; row s of the
  projected hidden layer, computed at point s / 200 from adjacency rows [200·(s/200), +200), is max(adj·(x·W0) + b0, 0)·W1
  at row s; and the block written back at point t ≥ 50 is rows [200·(t − 50), +200) of adj·(that) + b1. Both sides are
  the same sums in the same order: no law of the extended reals beyond reading each operation at an index is used.
-/
import proofs.«155554_g23725399343418_cont_8to1_318_3_alg».proof.Proof.KernelIdeal.Blocks
import proofs.«155554_g23725399343418_cont_8to1_318_3_alg».proof.Proof.KernelIdeal.Pay
import proofs.«155554_g23725399343418_cont_8to1_318_3_alg».proof.Proof.Spec
import Idealize.ShloMosaic.Lib.ValueLayout

set_option maxRecDepth 16384

noncomputable section

namespace Cert.KernelIdeal.Bridge

open Cert.KernelIdeal Cert.KernelIdeal.Gen Cert.KernelIdeal.Body Cert.KernelIdeal.Pay
open Idealize.ShloMosaic Idealize.ShloMosaic.TcCoe Idealize.ShloMosaic.ValueIdx Idealize.SL.Sem

variable (m : (ℓ : Loc nD τ sig) → Buf (Elt Ideal) ℓ) (ρ : Dev nD → PrngReg)

/-- The argument arrays as launched. -/
abbrev aX (c : Dev nD) : GcnSpec.Mat 10000 128 := m ((c : Thread nD τ).loc main_arg0)
abbrev aAdj (c : Dev nD) : GcnSpec.Mat 10000 10000 := m ((c : Thread nD τ).loc main_arg1)
abbrev aW0 (c : Dev nD) : GcnSpec.Mat 128 128 := m ((c : Thread nD τ).loc main_arg2)
abbrev aB0 (c : Dev nD) : GcnSpec.Row 128 := m ((c : Thread nD τ).loc main_arg3)
abbrev aW1 (c : Dev nD) : GcnSpec.Mat 128 128 := m ((c : Thread nD τ).loc main_arg4)
abbrev aB1 (c : Dev nD) : GcnSpec.Row 128 := m ((c : Thread nD τ).loc main_arg5)

/-- The x block at (s, k) is x[s, k]; likewise W0 and W1. -/
theorem x_at (c : Dev nD) (s : Fin 10000) (k : Fin 128) : iblk m c 1 t0 (ix2 s k) = aX m c (ix2 s k) :=
  (congrFun (xBlk_eq m c) (ix2 s k)).trans (congrFun (V_main_arg0 m c) (ix2 s k))
theorem w0_at (c : Dev nD) (k : Fin 128) (j : Fin 128) : iblk m c 2 t0 (ix2 k j) = aW0 m c (ix2 k j) :=
  (congrFun (w0Blk_eq m c) (ix2 k j)).trans (congrFun (V_main_arg2 m c) (ix2 k j))
theorem w1_at (c : Dev nD) (j : Fin 128) (k : Fin 128) : iblk m c 4 t0 (ix2 j k) = aW1 m c (ix2 j k) :=
  (congrFun (w1Blk_eq m c) (ix2 j k)).trans (congrFun (V_main_arg4 m c) (ix2 j k))
/-- A bias block at (0, j) is the bias vector at j: the host reshaped it to one row. -/
theorem b0_at (c : Dev nD) (j : Fin 128) : iblk m c 3 t0 (ix2 (0 : Fin 1) j) = aB0 m c (ix1 j) :=
  (congrFun (b0Blk_eq m c) (ix2 (0 : Fin 1) j)).trans ((congrFun (b0Row_eq m c) (ix2 (0 : Fin 1) j)).trans
    (shapeCast_a_1a_apply _ shapeCasts_S128_S1x128 (0 : Fin 1) j))
theorem b1_at (c : Dev nD) (k : Fin 128) : iblk m c 5 t0 (ix2 (0 : Fin 1) k) = aB1 m c (ix1 k) :=
  (congrFun (b1Blk_eq m c) (ix2 (0 : Fin 1) k)).trans ((congrFun (b1Row_eq m c) (ix2 (0 : Fin 1) k)).trans
    (shapeCast_a_1a_apply _ shapeCasts_S128_S1x128 (0 : Fin 1) k))
/-- An adjacency block at (r, s) is adj[200·(t mod 50) + r, s]. -/
theorem adj_at (c : Dev nD) (t : Fin cfg0.N) (r : Fin 200) (s : Fin 10000) :
    iblk m c 0 t (ix2 r s) = aAdj m c (ix2 (⟨200 * (t.val % 50) + r.val, by omega⟩ : Fin 10000) s) :=
  (adjBlk_apply m c t r s).trans (congrFun (V_main_arg1 m c) _)

/-- The projection the kernel keeps is the specification's. -/
theorem projP_at (c : Dev nD) (s : Fin 10000) (j : Fin 128) :
    projP m c (ix2 s j) = GcnSpec.proj0 (aX m c) (aW0 m c) s j := by
  unfold projP GcnSpec.proj0
  rw [pay1_apply]
  exact Finset.sum_congr rfl fun k _ => by rw [x_at, w0_at]

/-- An index (s, k) of the hidden layer sits at row s mod 200 of its slab. -/
theorem slabIx_ix2 (s : Fin 10000) (k : Fin 128) :
    slabIx (ix2 s k) = ix2 (⟨s.val % 200, Nat.mod_lt _ (by decide)⟩ : Fin 200) k := by
  funext a
  match a with
  | ⟨0, _⟩ => rfl
  | ⟨1, _⟩ => rfl

/-- The projected hidden layer the kernel keeps is the specification's. -/
theorem hidP_at (c : Dev nD) (s : Fin 10000) (k : Fin 128) :
    hidP m c (ix2 s k) = GcnSpec.proj1 (aX m c) (aAdj m c) (aW0 m c) (aB0 m c) (aW1 m c) s k := by
  have hs : s.val < 10000 := s.isLt
  unfold hidP GcnSpec.proj1 GcnSpec.hidden
  rw [slabIx_ix2, pay3_apply]
  refine Finset.sum_congr rfl fun j _ => ?_
  rw [b0_at, w1_at]
  congr 3
  refine Finset.sum_congr rfl fun s' _ => ?_
  rw [adj_at, projP_at]
  congr 2
  apply congrArg (fun q : Fin 10000 => ix2 q s')
  apply Fin.ext
  show 200 * ((s.val / 200) % 50) + s.val % 200 = s.val
  omega

/-- The block written back at a point of the second sweep is its block of the specification's result. -/
theorem outBlk_eq (c : Dev nD) (t : Fin cfg0.N) (ht : 50 ≤ t.val) :
    outBlk m c t = ((cfg0.win 6).blk t).view.read (Elt Ideal)
      (GcnSpec.out (aX m c) (aAdj m c) (aW0 m c) (aB0 m c) (aW1 m c) (aB1 m c)) := by
  have hN : t.val < 100 := lt_of_lt_of_eq t.isLt (show cfg0.N = 100 from N_0)
  funext j
  obtain ⟨r, k, rfl⟩ : ∃ (r : Fin 200) (k : Fin 128), j = ix2 r k := ⟨j 0, j 1, eq_ix2 j⟩
  rw [blk6_read_apply t ht]
  unfold outBlk GcnSpec.out GcnSpec.outAt
  rw [pay4_apply, iblk5_const m c t, b1_at]
  congr 1
  refine Finset.sum_congr rfl fun s _ => ?_
  rw [adj_at, hidP_at]
  congr 2
  apply congrArg (fun q : Fin 10000 => ix2 q s)
  apply Fin.ext
  show 200 * (t.val % 50) + r.val = 200 * (t.val - 50) + r.val
  omega

/-- The kernel's run at the ideal instance: the result array ends at the specification's result of the argument
    arrays, the arguments unchanged. -/
theorem kernel_value : θ_run defs (onTc (τ := τ) (main (F := Ideal))) ⟨m, fun _ => 0, ρ⟩ (fun r => ∀ c : Dev nD,
      r.2.mem ((c.tc : Thread nD τ).loc main_v0) = GcnSpec.out (aX m c) (aAdj m c) (aW0 m c) (aB0 m c) (aW1 m c) (aB1 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨(h c).1.trans (final6 m c _ (outBlk_eq m c)), (h c).2⟩) (run_value m ρ)

end Cert.KernelIdeal.Bridge

end
-- ==== Proof.RefValue.lean ====
/-
  The reference's result, read one operation at a time at an index, is the two-layer graph convolution of the
  argument arrays: each dot_general is the sum over its one contracted axis, each broadcast reads its operand at the
  column, the rectifier is max with the zero word.
-/
import proofs.«155554_g23725399343418_cont_8to1_318_3_alg».proof.Proof.Gen.ReferenceIdeal.Read
import proofs.«155554_g23725399343418_cont_8to1_318_3_alg».proof.Proof.Spec
import Idealize.ShloMosaic.Lib.ValueIdx
import Idealize.ShloMosaic.PureOps.Ideal.Laws

noncomputable section

namespace Cert.ReferenceIdeal.RefValue

open Cert.ReferenceIdeal Cert.ReferenceIdeal.Read Idealize.ShloMosaic Idealize.ShloMosaic.ValueIdx

/-! The index functions of the contractions and of the row broadcasts, at an index given by its coordinates:
    a contraction reads its left operand at (row, contracted) and its right operand at (contracted, column);
    the two broadcasts of a bias read it at the column. -/

private theorem lidx0 (r : Fin 10000) (j : Fin 128) (k : Fin 128) : lidx_main_v0 (ix2 r j) k = ix2 r k :=
  funext fun a => Fin.ext (by match a with | ⟨0, _⟩ => rfl | ⟨1, _⟩ => rfl)
private theorem ridx0 (r : Fin 10000) (j : Fin 128) (k : Fin 128) : ridx_main_v0 (ix2 r j) k = ix2 k j :=
  funext fun a => Fin.ext (by match a with | ⟨0, _⟩ => rfl | ⟨1, _⟩ => rfl)
private theorem lidx1 (r : Fin 10000) (j : Fin 128) (s : Fin 10000) : lidx_main_v1 (ix2 r j) s = ix2 r s :=
  funext fun a => Fin.ext (by match a with | ⟨0, _⟩ => rfl | ⟨1, _⟩ => rfl)
private theorem ridx1 (r : Fin 10000) (j : Fin 128) (s : Fin 10000) : ridx_main_v1 (ix2 r j) s = ix2 s j :=
  funext fun a => Fin.ext (by match a with | ⟨0, _⟩ => rfl | ⟨1, _⟩ => rfl)
private theorem lidx6 (r : Fin 10000) (k : Fin 128) (j : Fin 128) : lidx_main_v6 (ix2 r k) j = ix2 r j :=
  funext fun a => Fin.ext (by match a with | ⟨0, _⟩ => rfl | ⟨1, _⟩ => rfl)
private theorem ridx6 (r : Fin 10000) (k : Fin 128) (j : Fin 128) : ridx_main_v6 (ix2 r k) j = ix2 j k :=
  funext fun a => Fin.ext (by match a with | ⟨0, _⟩ => rfl | ⟨1, _⟩ => rfl)
private theorem lidx7 (r : Fin 10000) (k : Fin 128) (s : Fin 10000) : lidx_main_v7 (ix2 r k) s = ix2 r s :=
  funext fun a => Fin.ext (by match a with | ⟨0, _⟩ => rfl | ⟨1, _⟩ => rfl)
private theorem ridx7 (r : Fin 10000) (k : Fin 128) (s : Fin 10000) : ridx_main_v7 (ix2 r k) s = ix2 s k :=
  funext fun a => Fin.ext (by match a with | ⟨0, _⟩ => rfl | ⟨1, _⟩ => rfl)
private theorem bidx (r : Fin 10000) (j : Fin 128) : idx_main_v2 (idx_main_v3 (ix2 r j)) = ix1 j :=
  funext fun a => Fin.ext (by match a with | ⟨0, _⟩ => rfl)
private theorem bidx' (r : Fin 10000) (j : Fin 128) : idx_main_v8 (idx_main_v9 (ix2 r j)) = ix1 j :=
  funext fun a => Fin.ext (by match a with | ⟨0, _⟩ => rfl)

section Stages

variable (x0 : (⟨S10000x128, .f32⟩ : BufTy).Contents (Elt Ideal)) (x1 : (⟨S10000x10000, .f32⟩ : BufTy).Contents (Elt Ideal))
    (x2 : (⟨S128x128, .f32⟩ : BufTy).Contents (Elt Ideal)) (x3 : (⟨S128, .f32⟩ : BufTy).Contents (Elt Ideal))
    (x4 : (⟨S128x128, .f32⟩ : BufTy).Contents (Elt Ideal)) (x5 : (⟨S128, .f32⟩ : BufTy).Contents (Elt Ideal))

/-- The first contraction at (s, j) is the first projection. -/
private theorem v0_at (s : Fin 10000) (j : Fin 128) :
    val_main_v0 (F := Ideal) x0 x2 (ix2 s j) = Cert.GcnSpec.proj0 x0 x2 s j := by
  rw [val_main_v0_apply]
  unfold Cert.GcnSpec.proj0
  exact Finset.sum_congr rfl fun k _ => by rw [lidx0, ridx0]

/-- The second contraction at (r, j) is the sum over s of adj[r,s] times the first projection at (s, j). -/
private theorem v1_at (r : Fin 10000) (j : Fin 128) :
    val_main_v1 (F := Ideal) x0 x1 x2 (ix2 r j) = ∑ s : Fin 10000, x1 (ix2 r s) * Cert.GcnSpec.proj0 x0 x2 s j := by
  rw [val_main_v1_apply]
  exact Finset.sum_congr rfl fun s _ => by rw [lidx1, ridx1, v0_at]

/-- After the bias and the rectifier, the stage at (r, j) is the hidden layer. -/
private theorem v5_at (r : Fin 10000) (j : Fin 128) :
    val_main_v5 (F := Ideal) x0 x1 x2 x3 (ix2 r j) = Cert.GcnSpec.hidden x0 x1 x2 x3 r j := by
  rw [val_main_v5_apply, val_main_v4_apply, val_main_v3_apply, val_main_v2_apply, val_main_call0_v0_apply,
    val_main_call0_cst_apply, v1_at, bidx]
  rfl

/-- The third contraction at (s, k) is the hidden layer projected. -/
private theorem v6_at (s : Fin 10000) (k : Fin 128) :
    val_main_v6 (F := Ideal) x0 x1 x2 x3 x4 (ix2 s k) = Cert.GcnSpec.proj1 x0 x1 x2 x3 x4 s k := by
  rw [val_main_v6_apply]
  unfold Cert.GcnSpec.proj1
  exact Finset.sum_congr rfl fun j _ => by rw [lidx6, ridx6, v5_at]

/-- The fourth contraction at (r, k) is the sum over s of adj[r,s] times the projected hidden layer at (s, k). -/
private theorem v7_at (r : Fin 10000) (k : Fin 128) :
    val_main_v7 (F := Ideal) x0 x1 x2 x3 x4 (ix2 r k)
      = ∑ s : Fin 10000, x1 (ix2 r s) * Cert.GcnSpec.proj1 x0 x1 x2 x3 x4 s k := by
  rw [val_main_v7_apply]
  exact Finset.sum_congr rfl fun s _ => by rw [lidx7, ridx7, v6_at]

end Stages

/-- The reference's last stage is the specification's result, as whole arrays. -/
theorem ref_eq (x0 : (⟨S10000x128, .f32⟩ : BufTy).Contents (Elt Ideal)) (x1 : (⟨S10000x10000, .f32⟩ : BufTy).Contents (Elt Ideal))
    (x2 : (⟨S128x128, .f32⟩ : BufTy).Contents (Elt Ideal)) (x3 : (⟨S128, .f32⟩ : BufTy).Contents (Elt Ideal))
    (x4 : (⟨S128x128, .f32⟩ : BufTy).Contents (Elt Ideal)) (x5 : (⟨S128, .f32⟩ : BufTy).Contents (Elt Ideal)) :
    val_main_v10 (F := Ideal) x0 x1 x2 x3 x4 x5 = Cert.GcnSpec.out x0 x1 x2 x3 x4 x5 := by
  funext i
  obtain ⟨r, k, rfl⟩ : ∃ r k, i = ix2 r k := ⟨i 0, i 1, eq_ix2 i⟩
  rw [val_main_v10_apply, val_main_v9_apply, val_main_v8_apply, v7_at, bidx']
  rfl

end Cert.ReferenceIdeal.RefValue

end
-- ==== Proof.lean ====
/-
  The certificate of a two-layer graph convolution kernel against its reference,
      out = adj · (max(adj · (x · W0) + b0, 0) · W1) + b1,
  over x : [10000,128], adj : [10000,10000], W0, W1 : [128,128], b0, b1 : [128].

  The kernel sweeps the adjacency matrix twice in row blocks of 200 on a grid of 100 points. At the first point it
  keeps the projection x·W0 in a scratch buffer; at point t < 50 it computes rows [200t, 200t+200) of the hidden layer
  max(adj·(x·W0) + b0, 0), projects them by W1 and keeps them in a second scratch buffer; at point t ≥ 50 it writes
  rows [200(t−50), +200) of adj·(that) + b1. It feeds the matrix unit in a narrower float format, which on the
  extended reals is the identity, and each matrix product into a zero accumulator is the sum over the contracted axis:
  so both programs compute the same sums in the same order, and the two results are equal index by index with no
  further law and no use of the finiteness precondition.

  The frames of the two kernel programs are proved once, for any float instance, from the body obligation at each of
  the three kinds of grid point (Proof/KernelIdeal/*, and the same text for the word-level program in Proof/Kernel/*):
  the invariant between points names the first scratch's contents exactly and the second scratch's only on the rows
  filled so far. The reference's frame is its run with the result dropped. The idealization rewrote nothing, so what it
  must preserve is trivial.
-/
import proofs.«155554_g23725399343418_cont_8to1_318_3_alg».proof.Defs
import proofs.«155554_g23725399343418_cont_8to1_318_3_alg».proof.Proof.Gen.Kernel
import proofs.«155554_g23725399343418_cont_8to1_318_3_alg».proof.Proof.Gen.KernelIdeal
import proofs.«155554_g23725399343418_cont_8to1_318_3_alg».proof.Proof.Gen.ReferenceIdeal
import proofs.«155554_g23725399343418_cont_8to1_318_3_alg».proof.Proof.Gen.Pre_finite_inputs
import proofs.«155554_g23725399343418_cont_8to1_318_3_alg».proof.Proof.Gen.ReferenceIdeal.Run
import proofs.«155554_g23725399343418_cont_8to1_318_3_alg».proof.Proof.Gen.ReferenceIdeal.Read
import proofs.«155554_g23725399343418_cont_8to1_318_3_alg».proof.Proof.Kernel.Launch
import proofs.«155554_g23725399343418_cont_8to1_318_3_alg».proof.Proof.KernelIdeal.Bridge
import proofs.«155554_g23725399343418_cont_8to1_318_3_alg».proof.Proof.RefValue
import Idealize.ShloMosaic.Adequacy
import Idealize.ShloMosaic.Init

noncomputable section

namespace Cert.Proof

open Idealize.ShloMosaic Idealize.SL.Sem

/-- The word-level kernel runs and leaves its arguments unchanged. -/
theorem frame_k : Cert.frame_Kernel := fun m ρ _ => Cert.Kernel.Body.frame m ρ

/-- So does the idealized kernel. -/
theorem frame_ki : Cert.frame_KernelIdeal := fun m ρ _ => Cert.KernelIdeal.Body.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- On the extended reals the kernel's result array and the reference's are the same function of arguments that agree. -/
theorem algebraic : Cert.algebraic_KernelIdeal_ReferenceIdeal := by
  intro m ρ m' ρ' _ hagree
  refine ⟨_, Cert.KernelIdeal.Bridge.kernel_value m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v10_eq, Cert.ReferenceIdeal.RefValue.ref_eq,
    (hagree c).1, (hagree c).2.1, (hagree c).2.2.1, (hagree c).2.2.2.1, (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
